-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096 : Shape := ⟨2, ![8, 4096]⟩
abbrev S20000x1024 : Shape := ⟨2, ![20000, 1024]⟩
abbrev S40000x256 : Shape := ⟨2, ![40000, 256]⟩
abbrev S190000x64 : Shape := ⟨2, ![190000, 64]⟩
abbrev S1024x1024 : Shape := ⟨2, ![1024, 1024]⟩
abbrev S1024x256 : Shape := ⟨2, ![1024, 256]⟩
abbrev S1024x64 : Shape := ⟨2, ![1024, 64]⟩
abbrev S_ : Shape := ⟨0, ![]⟩

class Facts : Prop where
  bcast_S_S20000x1024 : S_.BroadcastsInDim S20000x1024 (![] : Fin 0 → Fin S20000x1024.rank)
  reducesTo_S20000x1024_S_d0_1 : S20000x1024.ReducesTo [0, 1] S_
  h_S_ : 0 < S_.numel
  bcast_S_S40000x256 : S_.BroadcastsInDim S40000x256 (![] : Fin 0 → Fin S40000x256.rank)
  reducesTo_S40000x256_S_d0_1 : S40000x256.ReducesTo [0, 1] S_
  bcast_S_S190000x64 : S_.BroadcastsInDim S190000x64 (![] : Fin 0 → Fin S190000x64.rank)
  reducesTo_S190000x64_S_d0_1 : S190000x64.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024x256 : S_.BroadcastsInDim S1024x256 (![] : Fin 0 → Fin S1024x256.rank)
  reducesTo_S1024x256_S_d0_1 : S1024x256.ReducesTo [0, 1] S_
  bcast_S_S1024x64 : S_.BroadcastsInDim S1024x64 (![] : Fin 0 → Fin S1024x64.rank)
  reducesTo_S1024x64_S_d0_1 : S1024x64.ReducesTo [0, 1] S_

variable [Facts]

def fn_part1 {F : FTy → Type} [FloatOps F] (main_arg5 : FVec F S1024x256 .f32) (main_arg6 : FVec F S1024x64 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x256 .f32 := Host.absf main_arg5
  let main_cst_6 : FVec F S_ .f32 := constant S_ .f32 0x7F800000#32
  let main_v20 : FVec F S1024x256 .f32 := broadcastInDim S1024x256 ![] bcast_S_S1024x256 main_cst_6
  let main_v21 : IVec S1024x256 1 := cmpf .olt main_v19 main_v20
  let main_c_7 : IVec S_ 1 := constantI S_ 1 1#1
  let main_v22 : IVec S_ 1 := (fun x v => Host.reduce IntOp.andi x v reducesTo_S1024x256_S_d0_1 h_S_) main_v21 main_c_7
  let main_v23 : IVec S_ 1 := andi main_v18 main_v22
  let main_v24 : FVec F S1024x64 .f32 := Host.absf main_arg6
  let main_cst_8 : FVec F S_ .f32 := constant S_ .f32 0x7F800000#32
  let main_v25 : FVec F S1024x64 .f32 := broadcastInDim S1024x64 ![] bcast_S_S1024x64 main_cst_8
  let main_v26 : IVec S1024x64 1 := cmpf .olt main_v24 main_v25
  let main_c_9 : IVec S_ 1 := constantI S_ 1 1#1
  let main_v27 : IVec S_ 1 := (fun x v => Host.reduce IntOp.andi x v reducesTo_S1024x64_S_d0_1 h_S_) main_v26 main_c_9
  let main_v28 : IVec S_ 1 := andi main_v23 main_v27
  main_v28

def fn {F : FTy → Type} [FloatOps F] (main_arg0 : IVec S8x4096 32) (main_arg1 : FVec F S20000x1024 .f32) (main_arg2 : FVec F S40000x256 .f32) (main_arg3 : FVec F S190000x64 .f32) (main_arg4 : FVec F S1024x1024 .f32) (main_arg5 : FVec F S1024x256 .f32) (main_arg6 : FVec F S1024x64 .f32) : IVec S_ 1 :=
  let main_v0 : FVec F S20000x1024 .f32 := Host.absf main_arg1
  let main_cst : FVec F S_ .f32 := constant S_ .f32 0x7F800000#32
  let main_v1 : FVec F S20000x1024 .f32 := broadcastInDim S20000x1024 ![] bcast_S_S20000x1024 main_cst
  let main_v2 : IVec S20000x1024 1 := cmpf .olt main_v0 main_v1
  let main_c : IVec S_ 1 := constantI S_ 1 1#1
  let main_v3 : IVec S_ 1 := (fun x v => Host.reduce IntOp.andi x v reducesTo_S20000x1024_S_d0_1 h_S_) main_v2 main_c
  let main_v4 : FVec F S40000x256 .f32 := Host.absf main_arg2
  let main_cst_0 : FVec F S_ .f32 := constant S_ .f32 0x7F800000#32
  let main_v5 : FVec F S40000x256 .f32 := broadcastInDim S40000x256 ![] bcast_S_S40000x256 main_cst_0
  let main_v6 : IVec S40000x256 1 := cmpf .olt main_v4 main_v5
  let main_c_1 : IVec S_ 1 := constantI S_ 1 1#1
  let main_v7 : IVec S_ 1 := (fun x v => Host.reduce IntOp.andi x v reducesTo_S40000x256_S_d0_1 h_S_) main_v6 main_c_1
  let main_v8 : IVec S_ 1 := andi main_v3 main_v7
  let main_v9 : FVec F S190000x64 .f32 := Host.absf main_arg3
  let main_cst_2 : FVec F S_ .f32 := constant S_ .f32 0x7F800000#32
  let main_v10 : FVec F S190000x64 .f32 := broadcastInDim S190000x64 ![] bcast_S_S190000x64 main_cst_2
  let main_v11 : IVec S190000x64 1 := cmpf .olt main_v9 main_v10
  let main_c_3 : IVec S_ 1 := constantI S_ 1 1#1
  let main_v12 : IVec S_ 1 := (fun x v => Host.reduce IntOp.andi x v reducesTo_S190000x64_S_d0_1 h_S_) main_v11 main_c_3
  let main_v13 : IVec S_ 1 := andi main_v8 main_v12
  let main_v14 : FVec F S1024x1024 .f32 := Host.absf main_arg4
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg5 main_arg6 main_v13 main_v16
-- ==== Kernel.lean ====
abbrev S8x4096 : Shape := ⟨2, ![8, 4096]⟩
abbrev S20000x1024 : Shape := ⟨2, ![20000, 1024]⟩
abbrev S40000x256 : Shape := ⟨2, ![40000, 256]⟩
abbrev S190000x64 : Shape := ⟨2, ![190000, 64]⟩
abbrev S1024x1024 : Shape := ⟨2, ![1024, 1024]⟩
abbrev S1024x256 : Shape := ⟨2, ![1024, 256]⟩
abbrev S1024x64 : Shape := ⟨2, ![1024, 64]⟩
abbrev S32768 : Shape := ⟨1, ![32768]⟩
abbrev S_ : Shape := ⟨0, ![]⟩
abbrev S32768x1 : Shape := ⟨2, ![32768, 1]⟩
abbrev S1 : Shape := ⟨1, ![1]⟩
abbrev S1x1 : Shape := ⟨2, ![1, 1]⟩
abbrev S32768x1024 : Shape := ⟨2, ![32768, 1024]⟩
abbrev S32768x256 : Shape := ⟨2, ![32768, 256]⟩
abbrev S256x1024 : Shape := ⟨2, ![256, 1024]⟩
abbrev S32768x64 : Shape := ⟨2, ![32768, 64]⟩
abbrev S64x1024 : Shape := ⟨2, ![64, 1024]⟩
abbrev S8x4096x1024 : Shape := ⟨3, ![8, 4096, 1024]⟩

abbrev nBuf : Space → Nat
  | .hbm => 160
  | .vmem => 11
  | .smem => 0
  | _ => 0

abbrev hbmTy0_0 (i : Nat) : BufTy := match i % 128 with
  | 0 => ⟨S8x4096, .i32⟩
  | 1 => ⟨S20000x1024, .f32⟩
  | 2 => ⟨S40000x256, .f32⟩
  | 3 => ⟨S190000x64, .f32⟩
  | 4 => ⟨S1024x1024, .f32⟩
  | 5 => ⟨S1024x256, .f32⟩
  | 6 => ⟨S1024x64, .f32⟩
  | 7 => ⟨S32768, .i32⟩
  | 8 => ⟨S_, .i32⟩
  | 9 => ⟨S32768, .i32⟩
  | 10 => ⟨S32768, .i32⟩
  | 11 => ⟨S_, .i32⟩
  | 12 => ⟨S_, .i32⟩
  | 13 => ⟨S_, .i32⟩
  | 14 => ⟨S32768, .i32⟩
  | 15 => ⟨S32768, .i32⟩
  | 16 => ⟨S_, .i32⟩
  | 17 => ⟨S32768, .i32⟩
  | 18 => ⟨S32768, .i32⟩
  | 19 => ⟨S_, .i32⟩
  | 20 => ⟨S32768, .i32⟩
  | 21 => ⟨S32768, .i1⟩
  | 22 => ⟨S_, .i32⟩
  | 23 => ⟨S32768, .i32⟩
  | 24 => ⟨S32768, .i32⟩
  | 25 => ⟨S32768, .i32⟩
  | 26 => ⟨S32768x1, .i32⟩
  | 27 => ⟨S1, .i32⟩
  | 28 => ⟨S_, .i32⟩
  | 29 => ⟨S32768x1, .i32⟩
  | 30 => ⟨S32768x1, .i1⟩
  | 31 => ⟨S1x1, .i32⟩
  | 32 => ⟨S32768x1, .i32⟩
  | 33 => ⟨S32768x1, .i1⟩
  | 34 => ⟨S32768x1, .i1⟩
  | 35 => ⟨S_, .i1⟩
  | 36 => ⟨S32768, .i1⟩
  | 37 => ⟨S32768x1024, .f32⟩
  | 38 => ⟨S32768x1024, .i1⟩
  | 39 => ⟨S_, .f32⟩
  | 40 => ⟨S32768x1024, .f32⟩
  | 41 => ⟨S32768x1024, .f32⟩
  | 42 => ⟨S_, .i32⟩
  | 43 => ⟨S32768, .i32⟩
  | 44 => ⟨S32768, .i1⟩
  | 45 => ⟨S_, .i32⟩
  | 46 => ⟨S32768, .i32⟩
  | 47 => ⟨S32768, .i1⟩
  | 48 => ⟨S32768, .i1⟩
  | 49 => ⟨S32768x1, .i1⟩
  | 50 => ⟨S_, .f32⟩
  | 51 => ⟨S_, .f32⟩
  | 52 => ⟨S32768x1024, .i1⟩
  | 53 => ⟨S32768x1024, .f32⟩
  | 54 => ⟨S32768x1024, .f32⟩
  | 55 => ⟨S32768x1024, .bf16⟩
  | 56 => ⟨S1024x1024, .bf16⟩
  | 57 => ⟨S1024x1024, .bf16⟩
  | 58 => ⟨S_, .i32⟩
  | 59 => ⟨S32768, .i32⟩
  | 60 => ⟨S32768, .i32⟩
  | 61 => ⟨S_, .i32⟩
  | 62 => ⟨S_, .i32⟩
  | 63 => ⟨S_, .i32⟩
  | 64 => ⟨S32768, .i32⟩
  | 65 => ⟨S32768, .i32⟩
  | 66 => ⟨S_, .i32⟩
  | 67 => ⟨S32768, .i32⟩
  | 68 => ⟨S32768, .i32⟩
  | 69 => ⟨S_, .i32⟩
  | 70 => ⟨S32768, .i32⟩
  | 71 => ⟨S32768, .i1⟩
  | 72 => ⟨S_, .i32⟩
  | 73 => ⟨S32768, .i32⟩
  | 74 => ⟨S32768, .i32⟩
  | 75 => ⟨S32768, .i32⟩
  | 76 => ⟨S32768x1, .i32⟩
  | 77 => ⟨S1, .i32⟩
  | 78 => ⟨S_, .i32⟩
  | 79 => ⟨S32768x1, .i32⟩
  | 80 => ⟨S32768x1, .i1⟩
  | 81 => ⟨S1x1, .i32⟩
  | 82 => ⟨S32768x1, .i32⟩
  | 83 => ⟨S32768x1, .i1⟩
  | 84 => ⟨S32768x1, .i1⟩
  | 85 => ⟨S_, .i1⟩
  | 86 => ⟨S32768, .i1⟩
  | 87 => ⟨S32768x256, .f32⟩
  | 88 => ⟨S32768x256, .i1⟩
  | 89 => ⟨S_, .f32⟩
  | 90 => ⟨S32768x256, .f32⟩
  | 91 => ⟨S32768x256, .f32⟩
  | 92 => ⟨S_, .i32⟩
  | 93 => ⟨S32768, .i32⟩
  | 94 => ⟨S32768, .i1⟩
  | 95 => ⟨S_, .i32⟩
  | 96 => ⟨S32768, .i32⟩
  | 97 => ⟨S32768, .i1⟩
  | 98 => ⟨S32768, .i1⟩
  | 99 => ⟨S32768x1, .i1⟩
  | 100 => ⟨S_, .f32⟩
  | 101 => ⟨S_, .f32⟩
  | 102 => ⟨S32768x256, .i1⟩
  | 103 => ⟨S32768x256, .f32⟩
  | 104 => ⟨S32768x256, .f32⟩
  | 105 => ⟨S32768x256, .bf16⟩
  | 106 => ⟨S1024x256, .bf16⟩
  | 107 => ⟨S256x1024, .bf16⟩
  | 108 => ⟨S_, .i32⟩
  | 109 => ⟨S32768, .i32⟩
  | 110 => ⟨S32768, .i32⟩
  | 111 => ⟨S_, .i32⟩
  | 112 => ⟨S_, .i32⟩
  | 113 => ⟨S_, .i32⟩
  | 114 => ⟨S32768, .i32⟩
  | 115 => ⟨S32768, .i32⟩
  | 116 => ⟨S_, .i32⟩
  | 117 => ⟨S32768, .i32⟩
  | 118 => ⟨S32768, .i32⟩
  | 119 => ⟨S_, .i32⟩
  | 120 => ⟨S32768, .i32⟩
  | 121 => ⟨S32768, .i1⟩
  | 122 => ⟨S_, .i32⟩
  | 123 => ⟨S32768, .i32⟩
  | 124 => ⟨S32768, .i32⟩
  | 125 => ⟨S32768, .i32⟩
  | 126 => ⟨S32768x1, .i32⟩
  | 127 => ⟨S1, .i32⟩
  | _ => ⟨S8x4096, .i32⟩

abbrev hbmTy0_1 (i : Nat) : BufTy := match i % 128 with
  | 0 => ⟨S_, .i32⟩
  | 1 => ⟨S32768x1, .i32⟩
  | 2 => ⟨S32768x1, .i1⟩
  | 3 => ⟨S1x1, .i32⟩
  | 4 => ⟨S32768x1, .i32⟩
  | 5 => ⟨S32768x1, .i1⟩
  | 6 => ⟨S32768x1, .i1⟩
  | 7 => ⟨S_, .i1⟩
  | 8 => ⟨S32768, .i1⟩
  | 9 => ⟨S32768x64, .f32⟩
  | 10 => ⟨S32768x64, .i1⟩
  | 11 => ⟨S_, .f32⟩
  | 12 => ⟨S32768x64, .f32⟩
  | 13 => ⟨S32768x64, .f32⟩
  | 14 => ⟨S_, .i32⟩
  | 15 => ⟨S32768, .i32⟩
  | 16 => ⟨S32768, .i1⟩
  | 17 => ⟨S_, .i32⟩
  | 18 => ⟨S32768, .i32⟩
  | 19 => ⟨S32768, .i1⟩
  | 20 => ⟨S32768, .i1⟩
  | 21 => ⟨S32768x1, .i1⟩
  | 22 => ⟨S_, .f32⟩
  | 23 => ⟨S_, .f32⟩
  | 24 => ⟨S32768x64, .i1⟩
  | 25 => ⟨S32768x64, .f32⟩
  | 26 => ⟨S32768x64, .f32⟩
  | 27 => ⟨S32768x64, .bf16⟩
  | 28 => ⟨S1024x64, .bf16⟩
  | 29 => ⟨S64x1024, .bf16⟩
  | 30 => ⟨S32768x1024, .f32⟩
  | 31 => ⟨S8x4096x1024, .f32⟩
  | _ => ⟨S8x4096, .i32⟩

abbrev hbmTy (i : Nat) : BufTy := match i / 128 with
  | 0 => hbmTy0_0 i
  | 1 => hbmTy0_1 i
  | _ => ⟨S8x4096, .i32⟩

abbrev bufTy : (tb : Table) → Fin (tcTables nBuf tb) → BufTy
  | .hbm, ⟨i, _⟩ => hbmTy i
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .bf16⟩
  | .local _ .vmem, ⟨4, _⟩ => ⟨S1024x64, .bf16⟩
  | .local _ .vmem, ⟨5, _⟩ => ⟨S1024x64, .bf16⟩
  | .local _ .vmem, ⟨6, _⟩ => ⟨S1024x1024, .bf16⟩
  | .local _ .vmem, ⟨7, _⟩ => ⟨S256x1024, .bf16⟩
  | .local _ .vmem, ⟨8, _⟩ => ⟨S64x1024, .bf16⟩
  | .local _ .vmem, ⟨9, _⟩ => ⟨S1024x1024, .f32⟩
  | .local _ .vmem, ⟨10, _⟩ => ⟨S1024x1024, .f32⟩
  | _, _ => ⟨S8x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v3 : Ref sig .tc := ⟨.hbm, 18, rfl⟩
abbrev main_call1_c : Ref sig .tc := ⟨.hbm, 19, rfl⟩
abbrev main_call1_v0 : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_c_1 : Ref sig .tc := ⟨.hbm, 27, rfl⟩
abbrev main_call1_c_2 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_3 : Ref sig .tc := ⟨.hbm, 35, rfl⟩
abbrev main_call1_v12 : Ref sig .tc := ⟨.hbm, 36, rfl⟩
abbrev main_call1_v13 : Ref sig .tc := ⟨.hbm, 37, rfl⟩
abbrev main_call1_v14 : Ref sig .tc := ⟨.hbm, 38, rfl⟩
abbrev main_call1_cst : Ref sig .tc := ⟨.hbm, 39, rfl⟩
abbrev main_call1_v15 : Ref sig .tc := ⟨.hbm, 40, rfl⟩
abbrev main_v4 : Ref sig .tc := ⟨.hbm, 41, rfl⟩
abbrev main_c_2 : Ref sig .tc := ⟨.hbm, 42, rfl⟩
abbrev main_v5 : Ref sig .tc := ⟨.hbm, 43, rfl⟩
abbrev main_v6 : Ref sig .tc := ⟨.hbm, 44, rfl⟩
abbrev main_c_3 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_cst : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_c_4 : Ref sig .tc := ⟨.hbm, 58, rfl⟩
abbrev main_v15 : Ref sig .tc := ⟨.hbm, 59, rfl⟩
abbrev main_v16 : Ref sig .tc := ⟨.hbm, 60, rfl⟩
abbrev main_c_5 : Ref sig .tc := ⟨.hbm, 61, rfl⟩
abbrev main_c_6 : Ref sig .tc := ⟨.hbm, 62, rfl⟩
abbrev main_call3_v0 : Ref sig .tc := ⟨.hbm, 63, rfl⟩
abbrev main_call3_v1 : Ref sig .tc := ⟨.hbm, 64, rfl⟩
abbrev main_call3_v2 : Ref sig .tc := ⟨.hbm, 65, rfl⟩
abbrev main_call3_v3 : Ref sig .tc := ⟨.hbm, 66, rfl⟩
abbrev main_call3_v4 : Ref sig .tc := ⟨.hbm, 67, rfl⟩
abbrev main_v17 : Ref sig .tc := ⟨.hbm, 68, rfl⟩
abbrev main_call4_c : Ref sig .tc := ⟨.hbm, 69, rfl⟩
abbrev main_call4_v0 : Ref sig .tc := ⟨.hbm, 70, rfl⟩
abbrev main_call4_v1 : Ref sig .tc := ⟨.hbm, 71, rfl⟩
abbrev main_call4_c_0 : Ref sig .tc := ⟨.hbm, 72, rfl⟩
abbrev main_call4_v2 : Ref sig .tc := ⟨.hbm, 73, rfl⟩
abbrev main_call4_v3 : Ref sig .tc := ⟨.hbm, 74, rfl⟩
abbrev main_call4_v4 : Ref sig .tc := ⟨.hbm, 75, rfl⟩
abbrev main_call4_v5 : Ref sig .tc := ⟨.hbm, 76, rfl⟩
abbrev main_call4_c_1 : Ref sig .tc := ⟨.hbm, 77, rfl⟩
abbrev main_call4_c_2 : Ref sig .tc := ⟨.hbm, 78, rfl⟩
abbrev main_call4_v6 : Ref sig .tc := ⟨.hbm, 79, rfl⟩
abbrev main_call4_v7 : Ref sig .tc := ⟨.hbm, 80, rfl⟩
abbrev main_call4_v8 : Ref sig .tc := ⟨.hbm, 81, rfl⟩
abbrev main_call4_v9 : Ref sig .tc := ⟨.hbm, 82, rfl⟩
abbrev main_call4_v10 : Ref sig .tc := ⟨.hbm, 83, rfl⟩
abbrev main_call4_v11 : Ref sig .tc := ⟨.hbm, 84, rfl⟩
abbrev main_call4_c_3 : Ref sig .tc := ⟨.hbm, 85, rfl⟩
abbrev main_call4_v12 : Ref sig .tc := ⟨.hbm, 86, rfl⟩
abbrev main_call4_v13 : Ref sig .tc := ⟨.hbm, 87, rfl⟩
abbrev main_call4_v14 : Ref sig .tc := ⟨.hbm, 88, rfl⟩
abbrev main_call4_cst : Ref sig .tc := ⟨.hbm, 89, rfl⟩
abbrev main_call4_v15 : Ref sig .tc := ⟨.hbm, 90, rfl⟩
abbrev main_v18 : Ref sig .tc := ⟨.hbm, 91, rfl⟩
abbrev main_c_7 : Ref sig .tc := ⟨.hbm, 92, rfl⟩
abbrev main_v19 : Ref sig .tc := ⟨.hbm, 93, rfl⟩
abbrev main_v20 : Ref sig .tc := ⟨.hbm, 94, rfl⟩
abbrev main_c_8 : Ref sig .tc := ⟨.hbm, 95, rfl⟩
abbrev main_v21 : Ref sig .tc := ⟨.hbm, 96, rfl⟩
abbrev main_v22 : Ref sig .tc := ⟨.hbm, 97, rfl⟩
abbrev main_v23 : Ref sig .tc := ⟨.hbm, 98, rfl⟩
abbrev main_v24 : Ref sig .tc := ⟨.hbm, 99, rfl⟩
abbrev main_cst_9 : Ref sig .tc := ⟨.hbm, 100, rfl⟩
abbrev main_call5_v0 : Ref sig .tc := ⟨.hbm, 101, rfl⟩
abbrev main_call5_v1 : Ref sig .tc := ⟨.hbm, 102, rfl⟩
abbrev main_call5_v2 : Ref sig .tc := ⟨.hbm, 103, rfl⟩
abbrev main_v25 : Ref sig .tc := ⟨.hbm, 104, rfl⟩
abbrev main_v26 : Ref sig .tc := ⟨.hbm, 105, rfl⟩
abbrev main_v27 : Ref sig .tc := ⟨.hbm, 106, rfl⟩
abbrev main_v28 : Ref sig .tc := ⟨.hbm, 107, rfl⟩
abbrev main_c_10 : Ref sig .tc := ⟨.hbm, 108, rfl⟩
abbrev main_v29 : Ref sig .tc := ⟨.hbm, 109, rfl⟩
abbrev main_v30 : Ref sig .tc := ⟨.hbm, 110, rfl⟩
abbrev main_c_11 : Ref sig .tc := ⟨.hbm, 111, rfl⟩
abbrev main_c_12 : Ref sig .tc := ⟨.hbm, 112, rfl⟩
abbrev main_call6_v0 : Ref sig .tc := ⟨.hbm, 113, rfl⟩
abbrev main_call6_v1 : Ref sig .tc := ⟨.hbm, 114, rfl⟩
abbrev main_call6_v2 : Ref sig .tc := ⟨.hbm, 115, rfl⟩
abbrev main_call6_v3 : Ref sig .tc := ⟨.hbm, 116, rfl⟩
abbrev main_call6_v4 : Ref sig .tc := ⟨.hbm, 117, rfl⟩
abbrev main_v31 : Ref sig .tc := ⟨.hbm, 118, rfl⟩
abbrev main_call7_c : Ref sig .tc := ⟨.hbm, 119, rfl⟩
abbrev main_call7_v0 : Ref sig .tc := ⟨.hbm, 120, rfl⟩
abbrev main_call7_v1 : Ref sig .tc := ⟨.hbm, 121, rfl⟩
abbrev main_call7_c_0 : Ref sig .tc := ⟨.hbm, 122, rfl⟩
abbrev main_call7_v2 : Ref sig .tc := ⟨.hbm, 123, rfl⟩
abbrev main_call7_v3 : Ref sig .tc := ⟨.hbm, 124, rfl⟩
abbrev main_call7_v4 : Ref sig .tc := ⟨.hbm, 125, rfl⟩
abbrev main_call7_v5 : Ref sig .tc := ⟨.hbm, 126, rfl⟩
abbrev main_call7_c_1 : Ref sig .tc := ⟨.hbm, 127, rfl⟩
abbrev main_call7_c_2 : Ref sig .tc := ⟨.hbm, 128, rfl⟩
abbrev main_call7_v6 : Ref sig .tc := ⟨.hbm, 129, rfl⟩
abbrev main_call7_v7 : Ref sig .tc := ⟨.hbm, 130, rfl⟩
abbrev main_call7_v8 : Ref sig .tc := ⟨.hbm, 131, rfl⟩
abbrev main_call7_v9 : Ref sig .tc := ⟨.hbm, 132, rfl⟩
abbrev main_call7_v10 : Ref sig .tc := ⟨.hbm, 133, rfl⟩
abbrev main_call7_v11 : Ref sig .tc := ⟨.hbm, 134, rfl⟩
abbrev main_call7_c_3 : Ref sig .tc := ⟨.hbm, 135, rfl⟩
abbrev main_call7_v12 : Ref sig .tc := ⟨.hbm, 136, rfl⟩
abbrev main_call7_v13 : Ref sig .tc := ⟨.hbm, 137, rfl⟩
abbrev main_call7_v14 : Ref sig .tc := ⟨.hbm, 138, rfl⟩
abbrev main_call7_cst : Ref sig .tc := ⟨.hbm, 139, rfl⟩
abbrev main_call7_v15 : Ref sig .tc := ⟨.hbm, 140, rfl⟩
abbrev main_v32 : Ref sig .tc := ⟨.hbm, 141, rfl⟩
abbrev main_c_13 : Ref sig .tc := ⟨.hbm, 142, rfl⟩
abbrev main_v33 : Ref sig .tc := ⟨.hbm, 143, rfl⟩
abbrev main_v34 : Ref sig .tc := ⟨.hbm, 144, rfl⟩
abbrev main_c_14 : Ref sig .tc := ⟨.hbm, 145, rfl⟩
abbrev main_v35 : Ref sig .tc := ⟨.hbm, 146, rfl⟩
abbrev main_v36 : Ref sig .tc := ⟨.hbm, 147, rfl⟩
abbrev main_v37 : Ref sig .tc := ⟨.hbm, 148, rfl⟩
abbrev main_v38 : Ref sig .tc := ⟨.hbm, 149, rfl⟩
abbrev main_cst_15 : Ref sig .tc := ⟨.hbm, 150, rfl⟩
abbrev main_call8_v0 : Ref sig .tc := ⟨.hbm, 151, rfl⟩
abbrev main_call8_v1 : Ref sig .tc := ⟨.hbm, 152, rfl⟩
abbrev main_call8_v2 : Ref sig .tc := ⟨.hbm, 153, rfl⟩
abbrev main_v39 : Ref sig .tc := ⟨.hbm, 154, rfl⟩
abbrev main_v40 : Ref sig .tc := ⟨.hbm, 155, rfl⟩
abbrev main_v41 : Ref sig .tc := ⟨.hbm, 156, rfl⟩
abbrev main_v42 : Ref sig .tc := ⟨.hbm, 157, rfl⟩
abbrev main_v43 : Ref sig .tc := ⟨.hbm, 158, rfl⟩
abbrev main_v44 : Ref sig .tc := ⟨.hbm, 159, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S8x4096_S32768 : S8x4096.ShapeCasts S32768
  bcast_S_S32768 : S_.BroadcastsInDim S32768 (![] : Fin 0 → Fin S32768.rank)
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  reducesTo_S32768x1_S32768_d1 : S32768x1.ReducesTo [1] S32768
  h_S_ : 0 < S_.numel
  bcast_S32768_S32768x1024_0 : S32768.BroadcastsInDim S32768x1024 (![0] : Fin 1 → Fin S32768x1024.rank)
  bcast_S_S32768x1024 : S_.BroadcastsInDim S32768x1024 (![] : Fin 0 → Fin S32768x1024.rank)
  bcast_S32768x1_S32768x1024_0_1 : S32768x1.BroadcastsInDim S32768x1024 (![0, 1] : Fin 2 → Fin S32768x1024.rank)
  bitsLt_bf16_f32 : FTy.bits .bf16 < FTy.bits .f32
  transposes_S1024x1024_S1024x1024_1_0 : S1024x1024.Transposes [1, 0] S1024x1024
  bcast_S32768_S32768x256_0 : S32768.BroadcastsInDim S32768x256 (![0] : Fin 1 → Fin S32768x256.rank)
  bcast_S_S32768x256 : S_.BroadcastsInDim S32768x256 (![] : Fin 0 → Fin S32768x256.rank)
  bcast_S32768x1_S32768x256_0_1 : S32768x1.BroadcastsInDim S32768x256 (![0, 1] : Fin 2 → Fin S32768x256.rank)
  transposes_S1024x256_S256x1024_1_0 : S1024x256.Transposes [1, 0] S256x1024
  bcast_S32768_S32768x64_0 : S32768.BroadcastsInDim S32768x64 (![0] : Fin 1 → Fin S32768x64.rank)
  bcast_S_S32768x64 : S_.BroadcastsInDim S32768x64 (![] : Fin 0 → Fin S32768x64.rank)
  bcast_S32768x1_S32768x64_0_1 : S32768x1.BroadcastsInDim S32768x64 (![0, 1] : Fin 2 → Fin S32768x64.rank)
  transposes_S1024x64_S64x1024_1_0 : S1024x64.Transposes [1, 0] S64x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  shapeCasts_S32768x1024_S8x4096x1024 : S32768x1024.ShapeCasts S8x4096x1024
  gather_S20000x1024_S32768x1_S32768x1024_1_0_n_n_0_1_11024_wf : GatherDims.WF S20000x1024 S32768x1 S32768x1024 [1] [0] [] [0] [] 1 ![1, 1024]
  gather_S40000x256_S32768x1_S32768x256_1_0_n_n_0_1_1256_wf : GatherDims.WF S40000x256 S32768x1 S32768x256 [1] [0] [] [0] [] 1 ![1, 256]
  gather_S190000x64_S32768x1_S32768x64_1_0_n_n_0_1_164_wf : GatherDims.WF S190000x64 S32768x1 S32768x64 [1] [0] [] [0] [] 1 ![1, 64]
  dot_S1024x1024_S1024x1024_S1024x1024_1_0_0_1_n_n_wf : DotDims.WF S1024x1024 S1024x1024 S1024x1024 [1] [0] [0] [1] [] []
  dot_S1024x256_S256x1024_S1024x1024_1_0_0_1_n_n_wf : DotDims.WF S1024x256 S256x1024 S1024x1024 [1] [0] [0] [1] [] []
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .bf16 = 32 ∨ (Rect.block (s := S32768x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S32768x256.size a
  hwx0_1 : ∀ i : grid0.Coords, EltTy.bits .bf16 = 32 ∨ (Rect.block (s := S32768x256) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S32768x64.size a
  hwx0_2 : ∀ i : grid0.Coords, EltTy.bits .bf16 = 32 ∨ (Rect.block (s := S32768x64) S1024x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S256x1024.size a
  hwx0_4 : ∀ i : grid0.Coords, EltTy.bits .bf16 = 32 ∨ (Rect.block (s := S256x1024) S256x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x1024.size a ≤ S64x1024.size a
  hwx0_5 : ∀ i : grid0.Coords, EltTy.bits .bf16 = 32 ∨ (Rect.block (s := S64x1024) S64x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S32768x1024.size a
  hwx0_6 : ∀ i : grid0.Coords, EltTy.bits .f32 = 32 ∨ (Rect.block (s := S32768x1024) S1024x1024.size (cc0_transform_6 i) (hinb0_6 i)).WholeWords (EltTy.packing .f32)

variable [Facts₀]

def gather_S20000x1024_S32768x1_S32768x1024_1_0_n_n_0_1_11024 : GatherDims S20000x1024 S32768x1 S32768x1024 where
  offsetDims := [1]
  collapsedSliceDims := [0]
  operandBatchingDims := []
  startIndicesBatchingDims := []
  startIndexMap := [0]
  indexVectorDim := 1
  sliceSizes := ![1, 1024]
  wf := gather_S20000x1024_S32768x1_S32768x1024_1_0_n_n_0_1_11024_wf
def gather_S40000x256_S32768x1_S32768x256_1_0_n_n_0_1_1256 : GatherDims S40000x256 S32768x1 S32768x256 where
  offsetDims := [1]
  collapsedSliceDims := [0]
  operandBatchingDims := []
  startIndicesBatchingDims := []
  startIndexMap := [0]
  indexVectorDim := 1
  sliceSizes := ![1, 256]
  wf := gather_S40000x256_S32768x1_S32768x256_1_0_n_n_0_1_1256_wf
def gather_S190000x64_S32768x1_S32768x64_1_0_n_n_0_1_164 : GatherDims S190000x64 S32768x1 S32768x64 where
  offsetDims := [1]
  collapsedSliceDims := [0]
  operandBatchingDims := []
  startIndicesBatchingDims := []
  startIndexMap := [0]
  indexVectorDim := 1
  sliceSizes := ![1, 64]
  wf := gather_S190000x64_S32768x1_S32768x64_1_0_n_n_0_1_164_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_v12) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v40) S1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S256x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v42) S64x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v43) S1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x4096 : Shape := ⟨2, ![8, 4096]⟩
abbrev S20000x1024 : Shape := ⟨2, ![20000, 1024]⟩
abbrev S40000x256 : Shape := ⟨2, ![40000, 256]⟩
abbrev S190000x64 : Shape := ⟨2, ![190000, 64]⟩
abbrev S1024x1024 : Shape := ⟨2, ![1024, 1024]⟩
abbrev S1024x256 : Shape := ⟨2, ![1024, 256]⟩
abbrev S1024x64 : Shape := ⟨2, ![1024, 64]⟩
abbrev S_ : Shape := ⟨0, ![]⟩
abbrev S8x4096x1024 : Shape := ⟨3, ![8, 4096, 1024]⟩
abbrev S8x4096x1 : Shape := ⟨3, ![8, 4096, 1]⟩
abbrev S8x4096x256 : Shape := ⟨3, ![8, 4096, 256]⟩
abbrev S8x4096x64 : Shape := ⟨3, ![8, 4096, 64]⟩

abbrev nBuf : Space → Nat
  | .hbm => 114
  | .vmem => 0
  | .smem => 0
  | _ => 0

abbrev bufTy : (tb : Table) → Fin (tcTables nBuf tb) → BufTy
  | .hbm, ⟨0, _⟩ => ⟨S8x4096, .i32⟩
  | .hbm, ⟨1, _⟩ => ⟨S20000x1024, .f32⟩
  | .hbm, ⟨2, _⟩ => ⟨S40000x256, .f32⟩
  | .hbm, ⟨3, _⟩ => ⟨S190000x64, .f32⟩
  | .hbm, ⟨4, _⟩ => ⟨S1024x1024, .f32⟩
  | .hbm, ⟨5, _⟩ => ⟨S1024x256, .f32⟩
  | .hbm, ⟨6, _⟩ => ⟨S1024x64, .f32⟩
  | .hbm, ⟨7, _⟩ => ⟨S_, .f32⟩
  | .hbm, ⟨8, _⟩ => ⟨S8x4096x1024, .f32⟩
  | .hbm, ⟨9, _⟩ => ⟨S_, .i32⟩
  | .hbm, ⟨10, _⟩ => ⟨S8x4096, .i32⟩
  | .hbm, ⟨11, _⟩ => ⟨S8x4096, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S8x4096, .i32⟩
  | .hbm, ⟨16, _⟩ => ⟨S8x4096, .i32⟩
  | .hbm, ⟨17, _⟩ => ⟨S_, .i32⟩
  | .hbm, ⟨18, _⟩ => ⟨S8x4096, .i32⟩
  | .hbm, ⟨19, _⟩ => ⟨S8x4096, .i32⟩
  | .hbm, ⟨20, _⟩ => ⟨S_, .i32⟩
  | .hbm, ⟨21, _⟩ => ⟨S8x4096, .i32⟩
  | .hbm, ⟨22, _⟩ => ⟨S8x4096, .i1⟩
  | .hbm, ⟨23, _⟩ => ⟨S_, .i32⟩
  | .hbm, ⟨24, _⟩ => ⟨S8x4096, .i32⟩
  | .hbm, ⟨25, _⟩ => ⟨S8x4096, .i32⟩
  | .hbm, ⟨26, _⟩ => ⟨S8x4096, .i32⟩
  | .hbm, ⟨27, _⟩ => ⟨S8x4096x1, .i32⟩
  | .hbm, ⟨28, _⟩ => ⟨S8x4096x1024, .f32⟩
  | .hbm, ⟨29, _⟩ => ⟨S8x4096x1024, .f32⟩
  | .hbm, ⟨30, _⟩ => ⟨S_, .i32⟩
  | .hbm, ⟨31, _⟩ => ⟨S8x4096, .i32⟩
  | .hbm, ⟨32, _⟩ => ⟨S8x4096, .i1⟩
  | .hbm, ⟨33, _⟩ => ⟨S_, .i32⟩
  | .hbm, ⟨34, _⟩ => ⟨S8x4096, .i32⟩
  | .hbm, ⟨35, _⟩ => ⟨S8x4096, .i1⟩
  | .hbm, ⟨36, _⟩ => ⟨S8x4096, .i1⟩
  | .hbm, ⟨37, _⟩ => ⟨S8x4096x1, .i1⟩
  | .hbm, ⟨38, _⟩ => ⟨S_, .f32⟩
  | .hbm, ⟨39, _⟩ => ⟨S_, .f32⟩
  | .hbm, ⟨40, _⟩ => ⟨S8x4096x1024, .i1⟩
  | .hbm, ⟨41, _⟩ => ⟨S8x4096x1024, .f32⟩
  | .hbm, ⟨42, _⟩ => ⟨S8x4096x1024, .f32⟩
  | .hbm, ⟨43, _⟩ => ⟨S8x4096x1024, .f32⟩
  | .hbm, ⟨44, _⟩ => ⟨S_, .i32⟩
  | .hbm, ⟨45, _⟩ => ⟨S8x4096, .i32⟩
  | .hbm, ⟨46, _⟩ => ⟨S8x4096, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S8x4096, .i32⟩
  | .hbm, ⟨51, _⟩ => ⟨S8x4096, .i32⟩
  | .hbm, ⟨52, _⟩ => ⟨S_, .i32⟩
  | .hbm, ⟨53, _⟩ => ⟨S8x4096, .i32⟩
  | .hbm, ⟨54, _⟩ => ⟨S8x4096, .i32⟩
  | .hbm, ⟨55, _⟩ => ⟨S_, .i32⟩
  | .hbm, ⟨56, _⟩ => ⟨S8x4096, .i32⟩
  | .hbm, ⟨57, _⟩ => ⟨S8x4096, .i1⟩
  | .hbm, ⟨58, _⟩ => ⟨S_, .i32⟩
  | .hbm, ⟨59, _⟩ => ⟨S8x4096, .i32⟩
  | .hbm, ⟨60, _⟩ => ⟨S8x4096, .i32⟩
  | .hbm, ⟨61, _⟩ => ⟨S8x4096, .i32⟩
  | .hbm, ⟨62, _⟩ => ⟨S8x4096x1, .i32⟩
  | .hbm, ⟨63, _⟩ => ⟨S8x4096x256, .f32⟩
  | .hbm, ⟨64, _⟩ => ⟨S8x4096x1024, .f32⟩
  | .hbm, ⟨65, _⟩ => ⟨S_, .i32⟩
  | .hbm, ⟨66, _⟩ => ⟨S8x4096, .i32⟩
  | .hbm, ⟨67, _⟩ => ⟨S8x4096, .i1⟩
  | .hbm, ⟨68, _⟩ => ⟨S_, .i32⟩
  | .hbm, ⟨69, _⟩ => ⟨S8x4096, .i32⟩
  | .hbm, ⟨70, _⟩ => ⟨S8x4096, .i1⟩
  | .hbm, ⟨71, _⟩ => ⟨S8x4096, .i1⟩
  | .hbm, ⟨72, _⟩ => ⟨S8x4096x1, .i1⟩
  | .hbm, ⟨73, _⟩ => ⟨S_, .f32⟩
  | .hbm, ⟨74, _⟩ => ⟨S_, .f32⟩
  | .hbm, ⟨75, _⟩ => ⟨S8x4096x1024, .i1⟩
  | .hbm, ⟨76, _⟩ => ⟨S8x4096x1024, .f32⟩
  | .hbm, ⟨77, _⟩ => ⟨S8x4096x1024, .f32⟩
  | .hbm, ⟨78, _⟩ => ⟨S8x4096x1024, .f32⟩
  | .hbm, ⟨79, _⟩ => ⟨S_, .i32⟩
  | .hbm, ⟨80, _⟩ => ⟨S8x4096, .i32⟩
  | .hbm, ⟨81, _⟩ => ⟨S8x4096, .i32⟩
  | .hbm, ⟨82, _⟩ => ⟨S_, .i32⟩
  | .hbm, ⟨83, _⟩ => ⟨S_, .i32⟩
  | .hbm, ⟨84, _⟩ => ⟨S_, .i32⟩
  | .hbm, ⟨85, _⟩ => ⟨S8x4096, .i32⟩
  | .hbm, ⟨86, _⟩ => ⟨S8x4096, .i32⟩
  | .hbm, ⟨87, _⟩ => ⟨S_, .i32⟩
  | .hbm, ⟨88, _⟩ => ⟨S8x4096, .i32⟩
  | .hbm, ⟨89, _⟩ => ⟨S8x4096, .i32⟩
  | .hbm, ⟨90, _⟩ => ⟨S_, .i32⟩
  | .hbm, ⟨91, _⟩ => ⟨S8x4096, .i32⟩
  | .hbm, ⟨92, _⟩ => ⟨S8x4096, .i1⟩
  | .hbm, ⟨93, _⟩ => ⟨S_, .i32⟩
  | .hbm, ⟨94, _⟩ => ⟨S8x4096, .i32⟩
  | .hbm, ⟨95, _⟩ => ⟨S8x4096, .i32⟩
  | .hbm, ⟨96, _⟩ => ⟨S8x4096, .i32⟩
  | .hbm, ⟨97, _⟩ => ⟨S8x4096x1, .i32⟩
  | .hbm, ⟨98, _⟩ => ⟨S8x4096x64, .f32⟩
  | .hbm, ⟨99, _⟩ => ⟨S8x4096x1024, .f32⟩
  | .hbm, ⟨100, _⟩ => ⟨S_, .i32⟩
  | .hbm, ⟨101, _⟩ => ⟨S8x4096, .i32⟩
  | .hbm, ⟨102, _⟩ => ⟨S8x4096, .i1⟩
  | .hbm, ⟨103, _⟩ => ⟨S_, .i32⟩
  | .hbm, ⟨104, _⟩ => ⟨S8x4096, .i32⟩
  | .hbm, ⟨105, _⟩ => ⟨S8x4096, .i1⟩
  | .hbm, ⟨106, _⟩ => ⟨S8x4096, .i1⟩
  | .hbm, ⟨107, _⟩ => ⟨S8x4096x1, .i1⟩
  | .hbm, ⟨108, _⟩ => ⟨S_, .f32⟩
  | .hbm, ⟨109, _⟩ => ⟨S_, .f32⟩
  | .hbm, ⟨110, _⟩ => ⟨S8x4096x1024, .i1⟩
  | .hbm, ⟨111, _⟩ => ⟨S8x4096x1024, .f32⟩
  | .hbm, ⟨112, _⟩ => ⟨S8x4096x1024, .f32⟩
  | .hbm, ⟨113, _⟩ => ⟨S8x4096x1024, .f32⟩
  | _, _ => ⟨S8x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_c_1 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v3 : Ref sig .tc := ⟨.hbm, 19, rfl⟩
abbrev main_c_2 : Ref sig .tc := ⟨.hbm, 20, rfl⟩
abbrev main_v4 : Ref sig .tc := ⟨.hbm, 21, rfl⟩
abbrev main_v5 : Ref sig .tc := ⟨.hbm, 22, rfl⟩
abbrev main_c_3 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c_4 : Ref sig .tc := ⟨.hbm, 30, rfl⟩
abbrev main_v12 : Ref sig .tc := ⟨.hbm, 31, rfl⟩
abbrev main_v13 : Ref sig .tc := ⟨.hbm, 32, rfl⟩
abbrev main_c_5 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_6 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v18 : Ref sig .tc := ⟨.hbm, 42, rfl⟩
abbrev main_v19 : Ref sig .tc := ⟨.hbm, 43, rfl⟩
abbrev main_c_7 : Ref sig .tc := ⟨.hbm, 44, rfl⟩
abbrev main_v20 : Ref sig .tc := ⟨.hbm, 45, rfl⟩
abbrev main_v21 : Ref sig .tc := ⟨.hbm, 46, rfl⟩
abbrev main_c_8 : Ref sig .tc := ⟨.hbm, 47, rfl⟩
abbrev main_c_9 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_v22 : Ref sig .tc := ⟨.hbm, 54, rfl⟩
abbrev main_c_10 : Ref sig .tc := ⟨.hbm, 55, rfl⟩
abbrev main_v23 : Ref sig .tc := ⟨.hbm, 56, rfl⟩
abbrev main_v24 : Ref sig .tc := ⟨.hbm, 57, rfl⟩
abbrev main_c_11 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_c_12 : Ref sig .tc := ⟨.hbm, 65, rfl⟩
abbrev main_v31 : Ref sig .tc := ⟨.hbm, 66, rfl⟩
abbrev main_v32 : Ref sig .tc := ⟨.hbm, 67, rfl⟩
abbrev main_c_13 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_cst_14 : Ref sig .tc := ⟨.hbm, 73, rfl⟩
abbrev main_call3_v0 : Ref sig .tc := ⟨.hbm, 74, rfl⟩
abbrev main_call3_v1 : Ref sig .tc := ⟨.hbm, 75, rfl⟩
abbrev main_call3_v2 : Ref sig .tc := ⟨.hbm, 76, rfl⟩
abbrev main_v37 : Ref sig .tc := ⟨.hbm, 77, rfl⟩
abbrev main_v38 : Ref sig .tc := ⟨.hbm, 78, rfl⟩
abbrev main_c_15 : Ref sig .tc := ⟨.hbm, 79, rfl⟩
abbrev main_v39 : Ref sig .tc := ⟨.hbm, 80, rfl⟩
abbrev main_v40 : Ref sig .tc := ⟨.hbm, 81, rfl⟩
abbrev main_c_16 : Ref sig .tc := ⟨.hbm, 82, rfl⟩
abbrev main_c_17 : Ref sig .tc := ⟨.hbm, 83, rfl⟩
abbrev main_call4_v0 : Ref sig .tc := ⟨.hbm, 84, rfl⟩
abbrev main_call4_v1 : Ref sig .tc := ⟨.hbm, 85, rfl⟩
abbrev main_call4_v2 : Ref sig .tc := ⟨.hbm, 86, rfl⟩
abbrev main_call4_v3 : Ref sig .tc := ⟨.hbm, 87, rfl⟩
abbrev main_call4_v4 : Ref sig .tc := ⟨.hbm, 88, rfl⟩
abbrev main_v41 : Ref sig .tc := ⟨.hbm, 89, rfl⟩
abbrev main_c_18 : Ref sig .tc := ⟨.hbm, 90, rfl⟩
abbrev main_v42 : Ref sig .tc := ⟨.hbm, 91, rfl⟩
abbrev main_v43 : Ref sig .tc := ⟨.hbm, 92, rfl⟩
abbrev main_c_19 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_c_20 : Ref sig .tc := ⟨.hbm, 100, rfl⟩
abbrev main_v50 : Ref sig .tc := ⟨.hbm, 101, rfl⟩
abbrev main_v51 : Ref sig .tc := ⟨.hbm, 102, rfl⟩
abbrev main_c_21 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_cst_22 : Ref sig .tc := ⟨.hbm, 108, rfl⟩
abbrev main_call5_v0 : Ref sig .tc := ⟨.hbm, 109, rfl⟩
abbrev main_call5_v1 : Ref sig .tc := ⟨.hbm, 110, rfl⟩
abbrev main_call5_v2 : Ref sig .tc := ⟨.hbm, 111, rfl⟩
abbrev main_v56 : Ref sig .tc := ⟨.hbm, 112, rfl⟩
abbrev main_v57 : Ref sig .tc := ⟨.hbm, 113, rfl⟩

abbrev nD : Nat := 1
abbrev τ : Topo := Topo.v7x

variable {F : FTy → Type} [FloatOps F]

class Facts₀ : Prop where
  bcast_S_S8x4096x1024 : S_.BroadcastsInDim S8x4096x1024 (![] : Fin 0 → Fin S8x4096x1024.rank)
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S8x4096x1_S8x4096x1024_0_1_2 : S8x4096x1.BroadcastsInDim S8x4096x1024 (![0, 1, 2] : Fin 3 → Fin S8x4096x1024.rank)
  gather_S20000x1024_S8x4096x1_S8x4096x1024_2_0_n_n_0_2_11024_wf : GatherDims.WF S20000x1024 S8x4096x1 S8x4096x1024 [2] [0] [] [0] [] 2 ![1, 1024]
  dot_S8x4096x1024_S1024x1024_S8x4096x1024_2_1_01_0_n_n_wf : DotDims.WF S8x4096x1024 S1024x1024 S8x4096x1024 [2] [1] [0, 1] [0] [] []
  gather_S40000x256_S8x4096x1_S8x4096x256_2_0_n_n_0_2_1256_wf : GatherDims.WF S40000x256 S8x4096x1 S8x4096x256 [2] [0] [] [0] [] 2 ![1, 256]
  dot_S8x4096x256_S1024x256_S8x4096x1024_2_1_01_0_n_n_wf : DotDims.WF S8x4096x256 S1024x256 S8x4096x1024 [2] [1] [0, 1] [0] [] []
  gather_S190000x64_S8x4096x1_S8x4096x64_2_0_n_n_0_2_164_wf : GatherDims.WF S190000x64 S8x4096x1 S8x4096x64 [2] [0] [] [0] [] 2 ![1, 64]
  dot_S8x4096x64_S1024x64_S8x4096x1024_2_1_01_0_n_n_wf : DotDims.WF S8x4096x64 S1024x64 S8x4096x1024 [2] [1] [0, 1] [0] [] []

variable [Facts₀]

def gather_S20000x1024_S8x4096x1_S8x4096x1024_2_0_n_n_0_2_11024 : GatherDims S20000x1024 S8x4096x1 S8x4096x1024 where
  offsetDims := [2]
  collapsedSliceDims := [0]
  operandBatchingDims := []
  startIndicesBatchingDims := []
  startIndexMap := [0]
  indexVectorDim := 2
  sliceSizes := ![1, 1024]
  wf := gather_S20000x1024_S8x4096x1_S8x4096x1024_2_0_n_n_0_2_11024_wf
def dot_S8x4096x1024_S1024x1024_S8x4096x1024_2_1_01_0_n_n : DotDims S8x4096x1024 S1024x1024 S8x4096x1024 where
  lhsContracting := [2]
  rhsContracting := [1]
  lhsNonContracting := [0, 1]
  rhsNonContracting := [0]
  lhsBatch := []
  rhsBatch := []
  wf := dot_S8x4096x1024_S1024x1024_S8x4096x1024_2_1_01_0_n_n_wf
def gather_S40000x256_S8x4096x1_S8x4096x256_2_0_n_n_0_2_1256 : GatherDims S40000x256 S8x4096x1 S8x4096x256 where
  offsetDims := [2]
  collapsedSliceDims := [0]
  operandBatchingDims := []
  startIndicesBatchingDims := []
  startIndexMap := [0]
  indexVectorDim := 2
  sliceSizes := ![1, 256]
  wf := gather_S40000x256_S8x4096x1_S8x4096x256_2_0_n_n_0_2_1256_wf
def dot_S8x4096x256_S1024x256_S8x4096x1024_2_1_01_0_n_n : DotDims S8x4096x256 S1024x256 S8x4096x1024 where
  lhsContracting := [2]
  rhsContracting := [1]
  lhsNonContracting := [0, 1]
  rhsNonContracting := [0]
  lhsBatch := []
  rhsBatch := []
  wf := dot_S8x4096x256_S1024x256_S8x4096x1024_2_1_01_0_n_n_wf
def gather_S190000x64_S8x4096x1_S8x4096x64_2_0_n_n_0_2_164 : GatherDims S190000x64 S8x4096x1 S8x4096x64 where
  offsetDims := [2]
  collapsedSliceDims := [0]
  operandBatchingDims := []
  startIndicesBatchingDims := []
  startIndexMap := [0]
  indexVectorDim := 2
  sliceSizes := ![1, 64]
  wf := gather_S190000x64_S8x4096x1_S8x4096x64_2_0_n_n_0_2_164_wf
def dot_S8x4096x64_S1024x64_S8x4096x1024_2_1_01_0_n_n : DotDims S8x4096x64 S1024x64 S8x4096x1024 where
  lhsContracting := [2]
  rhsContracting := [1]
  lhsNonContracting := [0, 1]
  rhsNonContracting := [0]
  lhsBatch := []
  rhsBatch := []
  wf := dot_S8x4096x64_S1024x64_S8x4096x1024_2_1_01_0_n_n_wf

class Facts : Prop extends Facts₀ where

variable [Facts]
-- ==== Proof.LibRows.lean ====
/-
  A scatter-add of whole rows into a table, and a gather of whole rows out of one, read at an index.

  The host's accumulating scatter with one index per update row: entry (c, j) of the result is the operand's entry plus the
  sum of column j of every update row whose index, read as a signed integer, is c and lies inside the table; an update row
  whose index lies outside is dropped. The same for a table of scalars (no column).
  The host's gather of rows: entry (…, j) of the result is column j of the table row named by the index at (…), read as a
  signed integer and clamped into the table.
  The four dimension records below are the ones a row scatter and a row gather print as; a printed record is one of them
  with its own well-formedness proof.
-/
import Idealize.ShloMosaic.PureOps.Ideal
import Idealize.ShloMosaic.PureOps.Ideal.Laws
import Idealize.ShloMosaic.Lib.ValueIdx

noncomputable section

namespace Cert.LibRows

open Idealize.ShloMosaic Idealize.ShloMosaic.ValueIdx

/-- The word h, read signed, is the number of row c of a table of N rows. -/
def RowHit {w : Nat} (N : Nat) (h : BitVec w) (c : Fin N) : Prop :=
  0 ≤ h.toInt ∧ h.toInt < (N : Int) ∧ h.toInt.toNat = c.val

instance {w : Nat} (N : Nat) (h : BitVec w) (c : Fin N) : Decidable (RowHit N h c) := by unfold RowHit; infer_instance

/-- The word h, read signed and clamped into a table of N rows. -/
def rowClamp {w : Nat} (N : Nat) (hN : 0 < N) (h : BitVec w) : Fin N := ⟨min h.toInt.toNat (N - 1), by omega⟩

/-- A scatter of M rows of C columns into a table of N rows, one index per row. -/
abbrev rowsScatter (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- A scatter of M scalars into a table of N scalars, one index per scalar. -/
abbrev vecScatter (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- A gather of rows of C columns out of a table of N rows, indexed by an A x B array of indices. -/
abbrev rowsGather3 (N C A B : Nat)
    (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

/-- A gather of rows of C columns out of a table of N rows, indexed by an A x B x D array of indices. -/
abbrev rowsGather4 (N C A B D : Nat)
    (wf : GatherDims.WF ⟨2, ![N, C]⟩ ⟨4, ![A, B, D, 1]⟩ ⟨4, ![A, B, D, C]⟩ [3] [0] [] [0] [] 3 ![1, C]) :
    GatherDims ⟨2, ![N, C]⟩ ⟨4, ![A, B, D, 1]⟩ ⟨4, ![A, B, D, C]⟩ where
  offsetDims := [3]
  collapsedSliceDims := [0]
  operandBatchingDims := []
  startIndicesBatchingDims := []
  startIndexMap := [0]
  indexVectorDim := 3
  sliceSizes := ![1, C]
  wf := wf

section RowsScatter

variable {N M C w : Nat} (wf : ScatterDims.WF ⟨2, ![N, C]⟩ ⟨2, ![M, 1]⟩ ⟨2, ![M, C]⟩ [1] [0] [0] 1)
  (idx : IVec ⟨2, ![M, 1]⟩ w) (q : Fin M) (j' : Fin C)

/-- On the table's row axis the window of update (q, j') starts at the q-th index, read signed. -/
private theorem rows_start0 : (rowsScatter N M C wf).start (ix2 q j') idx 0 = (idx (ix2 q 0)).toInt := by
  unfold ScatterDims.start
  rw [dif_pos (show (0 : Fin 2) ∈ (rowsScatter N M C wf).scatterDimsToOperandDims from List.mem_singleton.mpr rfl)]
  have hsi : (rowsScatter N M C wf).siIdx (ix2 q j') ⟨List.idxOf (0 : Fin 2) (rowsScatter N M C wf).scatterDimsToOperandDims,
      List.idxOf_lt_length_iff.2 (List.mem_singleton.mpr rfl)⟩ = ix2 q 0 := by
    funext b; refine Fin.ext ?_
    match b with
    | ⟨0, _⟩ => rfl
    | ⟨1, _⟩ => rfl
  rw [hsi]

/-- On the column axis it starts at 0. -/
private theorem rows_start1 : (rowsScatter N M C wf).start (ix2 q j') idx 1 = 0 := by
  unfold ScatterDims.start
  rw [dif_neg (show (1 : Fin 2) ∉ ([0] : List (Fin 2)) by decide)]

/-- The row axis is inserted: no window coordinate. -/
private theorem rows_window0 : (rowsScatter N M C wf).window (ix2 q j') 0 = 0 := by
  have h0 : (0 : Fin 2) ∉ (List.finRange 2).filter (fun a => decide (a ∉ ([0] : List (Fin 2)))) := by decide
  unfold ScatterDims.window
  rw [dif_neg (show (0 : Fin 2) ∉ (rowsScatter N M C wf).sKept from h0)]

/-- The column axis carries the update's column. -/
private theorem rows_window1 : (rowsScatter N M C wf).window (ix2 q j') 1 = j'.val := by
  have h1 : (1 : Fin 2) ∈ (List.finRange 2).filter (fun a => decide (a ∉ ([0] : List (Fin 2)))) := by decide
  unfold ScatterDims.window
  rw [dif_pos (show (1 : Fin 2) ∈ (rowsScatter N M C wf).sKept from h1)]
  rfl

/-- Update (q, j') lands at (c, j) exactly when its index names row c inside the table and j' = j. -/
private theorem rows_hit (c : Fin N) (j : Fin C) :
    (rowsScatter N M C wf).resultIdx? (ix2 q j') idx = some (ix2 c j) ↔ RowHit N (idx (ix2 q 0)) c ∧ j' = j := by
  unfold ScatterDims.resultIdx?
  constructor
  · intro h
    split at h
    · rename_i hall
      have hf := Option.some.inj h
      have h0 : ((rowsScatter N M C wf).start (ix2 q j') idx 0 + ((rowsScatter N M C wf).window (ix2 q j') 0 : Nat)).toNat = c.val :=
        congrArg Fin.val (congrFun hf 0)
      have h1 : ((rowsScatter N M C wf).start (ix2 q j') idx 1 + ((rowsScatter N M C wf).window (ix2 q j') 1 : Nat)).toNat = j.val :=
        congrArg Fin.val (congrFun hf 1)
      have ha : 0 ≤ (rowsScatter N M C wf).start (ix2 q j') idx 0 + ((rowsScatter N M C wf).window (ix2 q j') 0 : Nat)
          ∧ (rowsScatter N M C wf).start (ix2 q j') idx 0 + ((rowsScatter N M C wf).window (ix2 q j') 0 : Nat) < (N : Int) := hall 0
      rw [rows_start0, rows_window0] at h0 ha
      rw [rows_start1, rows_window1] at h1
      refine ⟨⟨by omega, by omega, by omega⟩, Fin.ext (by omega)⟩
    · exact absurd h (by simp)
  · rintro ⟨⟨h0, h1, h2⟩, rfl⟩
    have hall : ∀ a, 0 ≤ (rowsScatter N M C wf).start (ix2 q j') idx a + ((rowsScatter N M C wf).window (ix2 q j') a : Nat)
        ∧ (rowsScatter N M C wf).start (ix2 q j') idx a + ((rowsScatter N M C wf).window (ix2 q j') a : Nat) < ((⟨2, ![N, C]⟩ : Shape).size a : Int) := by
      intro a
      match a with
      | ⟨0, _⟩ =>
        show 0 ≤ (rowsScatter N M C wf).start (ix2 q j') idx 0 + ((rowsScatter N M C wf).window (ix2 q j') 0 : Nat)
          ∧ (rowsScatter N M C wf).start (ix2 q j') idx 0 + ((rowsScatter N M C wf).window (ix2 q j') 0 : Nat) < (N : Int)
        rw [rows_start0, rows_window0]; omega
      | ⟨1, _⟩ =>
        show 0 ≤ (rowsScatter N M C wf).start (ix2 q j') idx 1 + ((rowsScatter N M C wf).window (ix2 q j') 1 : Nat)
          ∧ (rowsScatter N M C wf).start (ix2 q j') idx 1 + ((rowsScatter N M C wf).window (ix2 q j') 1 : Nat) < (C : Int)
        rw [rows_start1, rows_window1]; have := j'.isLt; omega
    rw [dif_pos hall]
    congr 1
    funext a
    refine Fin.ext ?_
    match a with
    | ⟨0, _⟩ =>
      show ((rowsScatter N M C wf).start (ix2 q j') idx 0 + ((rowsScatter N M C wf).window (ix2 q j') 0 : Nat)).toNat = c.val
      rw [rows_start0, rows_window0]; omega
    | ⟨1, _⟩ =>
      show ((rowsScatter N M C wf).start (ix2 q j') idx 1 + ((rowsScatter N M C wf).window (ix2 q j') 1 : Nat)).toNat = j'.val
      rw [rows_start1, rows_window1]; omega

end RowsScatter

section VecScatter

variable {N M w : Nat} (wf : ScatterDims.WF ⟨1, ![N]⟩ ⟨2, ![M, 1]⟩ ⟨1, ![M]⟩ [] [0] [0] 1)
  (idx : IVec ⟨2, ![M, 1]⟩ w) (q : Fin M)

/-- The window of update q starts at the q-th index, read signed. -/
private theorem vec_start0 : (vecScatter N M wf).start (ix1 q) idx 0 = (idx (ix2 q 0)).toInt := by
  unfold ScatterDims.start
  rw [dif_pos (show (0 : Fin 1) ∈ (vecScatter N M wf).scatterDimsToOperandDims from List.mem_singleton.mpr rfl)]
  have hsi : (vecScatter N M wf).siIdx (ix1 q) ⟨List.idxOf (0 : Fin 1) (vecScatter N M wf).scatterDimsToOperandDims,
      List.idxOf_lt_length_iff.2 (List.mem_singleton.mpr rfl)⟩ = ix2 q 0 := by
    funext b; refine Fin.ext ?_
    match b with
    | ⟨0, _⟩ => rfl
    | ⟨1, _⟩ => rfl
  rw [hsi]

/-- The table's one axis is inserted: no window coordinate. -/
private theorem vec_window0 : (vecScatter N M wf).window (ix1 q) 0 = 0 := by
  have h0 : (0 : Fin 1) ∉ (List.finRange 1).filter (fun a => decide (a ∉ ([0] : List (Fin 1)))) := by decide
  unfold ScatterDims.window
  rw [dif_neg (show (0 : Fin 1) ∉ (vecScatter N M wf).sKept from h0)]

/-- Update q lands at c exactly when its index names entry c inside the table. -/
private theorem vec_hit (c : Fin N) :
    (vecScatter N M wf).resultIdx? (ix1 q) idx = some (ix1 c) ↔ RowHit N (idx (ix2 q 0)) c := by
  unfold ScatterDims.resultIdx?
  constructor
  · intro h
    split at h
    · rename_i hall
      have hf := Option.some.inj h
      have h0 : ((vecScatter N M wf).start (ix1 q) idx 0 + ((vecScatter N M wf).window (ix1 q) 0 : Nat)).toNat = c.val :=
        congrArg Fin.val (congrFun hf 0)
      have ha : 0 ≤ (vecScatter N M wf).start (ix1 q) idx 0 + ((vecScatter N M wf).window (ix1 q) 0 : Nat)
          ∧ (vecScatter N M wf).start (ix1 q) idx 0 + ((vecScatter N M wf).window (ix1 q) 0 : Nat) < (N : Int) := hall 0
      rw [vec_start0, vec_window0] at h0 ha
      exact ⟨by omega, by omega, by omega⟩
    · exact absurd h (by simp)
  · rintro ⟨h0, h1, h2⟩
    have hall : ∀ a, 0 ≤ (vecScatter N M wf).start (ix1 q) idx a + ((vecScatter N M wf).window (ix1 q) a : Nat)
        ∧ (vecScatter N M wf).start (ix1 q) idx a + ((vecScatter N M wf).window (ix1 q) a : Nat) < ((⟨1, ![N]⟩ : Shape).size a : Int) := by
      intro a
      match a with
      | ⟨0, _⟩ =>
        show 0 ≤ (vecScatter N M wf).start (ix1 q) idx 0 + ((vecScatter N M wf).window (ix1 q) 0 : Nat)
          ∧ (vecScatter N M wf).start (ix1 q) idx 0 + ((vecScatter N M wf).window (ix1 q) 0 : Nat) < (N : Int)
        rw [vec_start0, vec_window0]; omega
    rw [dif_pos hall]
    congr 1
    funext a
    refine Fin.ext ?_
    match a with
    | ⟨0, _⟩ =>
      show ((vecScatter N M wf).start (ix1 q) idx 0 + ((vecScatter N M wf).window (ix1 q) 0 : Nat)).toNat = c.val
      rw [vec_start0, vec_window0]; omega

end VecScatter

/-- THE ROW SCATTER-ADD READ AT (c, j). -/
theorem scatterAdd_rows_apply {N M C w : Nat} {φ : FTy}
    (wf : ScatterDims.WF ⟨2, ![N, C]⟩ ⟨2, ![M, 1]⟩ ⟨2, ![M, C]⟩ [1] [0] [0] 1)
    (x : FVec Ideal ⟨2, ![N, C]⟩ φ) (idx : IVec ⟨2, ![M, 1]⟩ w) (upd : FVec Ideal ⟨2, ![M, C]⟩ φ) (c : Fin N) (j : Fin C) :
    Host.scatterAdd (F := Ideal) (rowsScatter N M C wf) x idx upd (ix2 c j)
      = x (ix2 c j) + ∑ q ∈ Finset.univ.filter (fun q : Fin M => RowHit N (idx (ix2 q 0)) c), upd (ix2 q j) := by
  show Ideal.hostScatterAdd (rowsScatter N M C wf) x idx upd (ix2 c j) = _
  unfold Ideal.hostScatterAdd
  congr 1
  -- an update that lands at (c, j) hits row c and sits in column j
  have key : ∀ i : (⟨2, ![M, C]⟩ : Shape).Idx, (rowsScatter N M C wf).resultIdx? i idx = some (ix2 c j) →
      RowHit N (idx (ix2 (i 0) 0)) c ∧ ix2 (i 0) j = i := by
    intro i hi
    have hi2 : (rowsScatter N M C wf).resultIdx? (ix2 (i 0) (i 1)) idx = some (ix2 c j) :=
      Eq.mp (congrArg (fun t => (rowsScatter N M C wf).resultIdx? t idx = some (ix2 c j)) (eq_ix2 i)) hi
    obtain ⟨hr, hj⟩ := (rows_hit wf idx (i 0) (i 1) c j).mp hi2
    exact ⟨hr, (congrArg (fun t => ix2 (i 0) t) hj).symm.trans (eq_ix2 i).symm⟩
  -- so the updates landing at (c, j) are the (q, j) with q a hit, one for one
  refine Finset.sum_nbij' (fun i => (i 0 : Fin M)) (fun q => ix2 q j) ?_ ?_ ?_ ?_ ?_
  · intro i hi
    exact Finset.mem_filter.mpr ⟨Finset.mem_univ _, (key i (Finset.mem_filter.mp hi).2).1⟩
  · intro q hq
    exact Finset.mem_filter.mpr ⟨Finset.mem_univ _, (rows_hit wf idx q j c j).mpr ⟨(Finset.mem_filter.mp hq).2, rfl⟩⟩
  · intro i hi
    exact (key i (Finset.mem_filter.mp hi).2).2
  · intro q _
    rfl
  · intro i hi
    exact congrArg upd (key i (Finset.mem_filter.mp hi).2).2.symm

/-- THE SCALAR SCATTER-ADD READ AT c. -/
theorem scatterAdd_vec_apply {N M w : Nat} {φ : FTy}
    (wf : ScatterDims.WF ⟨1, ![N]⟩ ⟨2, ![M, 1]⟩ ⟨1, ![M]⟩ [] [0] [0] 1)
    (x : FVec Ideal ⟨1, ![N]⟩ φ) (idx : IVec ⟨2, ![M, 1]⟩ w) (upd : FVec Ideal ⟨1, ![M]⟩ φ) (c : Fin N) :
    Host.scatterAdd (F := Ideal) (vecScatter N M wf) x idx upd (ix1 c)
      = x (ix1 c) + ∑ q ∈ Finset.univ.filter (fun q : Fin M => RowHit N (idx (ix2 q 0)) c), upd (ix1 q) := by
  show Ideal.hostScatterAdd (vecScatter N M wf) x idx upd (ix1 c) = _
  unfold Ideal.hostScatterAdd
  congr 1
  -- an update that lands at c hits entry c
  have key : ∀ i : (⟨1, ![M]⟩ : Shape).Idx, (vecScatter N M wf).resultIdx? i idx = some (ix1 c) →
      RowHit N (idx (ix2 (i 0) 0)) c := by
    intro i hi
    have hi2 : (vecScatter N M wf).resultIdx? (ix1 (i 0)) idx = some (ix1 c) :=
      Eq.mp (congrArg (fun t => (vecScatter N M wf).resultIdx? t idx = some (ix1 c)) (eq_ix1 i)) hi
    exact (vec_hit wf idx (i 0) c).mp hi2
  -- so the updates landing at c are the hits, one for one
  refine Finset.sum_nbij' (fun i => (i 0 : Fin M)) (fun q => ix1 q) ?_ ?_ ?_ ?_ ?_
  · intro i hi
    exact Finset.mem_filter.mpr ⟨Finset.mem_univ _, key i (Finset.mem_filter.mp hi).2⟩
  · intro q hq
    exact Finset.mem_filter.mpr ⟨Finset.mem_univ _, (vec_hit wf idx q c).mpr (Finset.mem_filter.mp hq).2⟩
  · intro i _
    exact (eq_ix1 i).symm
  · intro q _
    rfl
  · intro i _
    exact congrArg upd (eq_ix1 i)

/-- THE ROW GATHER OVER AN A x B ARRAY OF INDICES READ AT (a, b, j). -/
theorem gather_rows3_apply {α : Type} {N C A B w : Nat} (hN : 0 < N)
    (wf : GatherDims.WF ⟨2, ![N, C]⟩ ⟨3, ![A, B, 1]⟩ ⟨3, ![A, B, C]⟩ [2] [0] [] [0] [] 2 ![1, C])
    (x : (⟨2, ![N, C]⟩ : Shape).Idx → α) (idx : IVec ⟨3, ![A, B, 1]⟩ w) (a : Fin A) (b : Fin B) (j : Fin C) :
    Host.gather (rowsGather3 N C A B wf) x idx (ix3 a b j) = x (ix2 (rowClamp N hN (idx (ix3 a b 0))) j) := by
  unfold Host.gather
  congr 1
  funext e
  refine Fin.ext ?_
  match e with
  | ⟨0, _⟩ =>
    show (rowsGather3 N C A B wf).start (ix3 a b j) idx 0 + (rowsGather3 N C A B wf).batchCoord (ix3 a b j) 0
      + (rowsGather3 N C A B wf).offCoord (ix3 a b j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGather3 N C A B wf).startIndexMap from List.mem_singleton.mpr rfl)]
    have hsi : (rowsGather3 N C A B wf).siIdx (ix3 a b j) ⟨List.idxOf (0 : Fin 2) (rowsGather3 N C A B wf).startIndexMap,
        List.idxOf_lt_length_iff.2 (List.mem_singleton.mpr rfl)⟩ = ix3 a b 0 := by
      funext b'; refine Fin.ext ?_
      match b' with
      | ⟨0, _⟩ => rfl
      | ⟨1, _⟩ => rfl
      | ⟨2, _⟩ => rfl
    rw [hsi]
    rfl
  | ⟨1, _⟩ =>
    show (rowsGather3 N C A B wf).start (ix3 a b j) idx 1 + (rowsGather3 N C A B wf).batchCoord (ix3 a b j) 1
      + (rowsGather3 N C A B wf).offCoord (ix3 a b j) 1 = j.val
    rw [GatherDims.batchCoord_eq_zero _ _ _ List.not_mem_nil]
    have hs : (rowsGather3 N C A B wf).start (ix3 a b j) idx 1 = 0 := by
      unfold GatherDims.start
      rw [dif_neg (show (1 : Fin 2) ∉ ([0] : List (Fin 2)) by decide)]
    rw [hs]
    simp only [Nat.add_zero, Nat.zero_add]
    unfold GatherDims.offCoord
    rw [dif_pos ((GatherDims.mem_sKept _ _).mpr ⟨(show (1 : Fin 2) ∉ ([0] : List (Fin 2)) by decide), List.not_mem_nil⟩)]
    rfl

/-- THE ROW GATHER OVER AN A x B x D ARRAY OF INDICES READ AT (a, b, d, j). -/
theorem gather_rows4_apply {α : Type} {N C A B D w : Nat} (hN : 0 < N)
    (wf : GatherDims.WF ⟨2, ![N, C]⟩ ⟨4, ![A, B, D, 1]⟩ ⟨4, ![A, B, D, C]⟩ [3] [0] [] [0] [] 3 ![1, C])
    (x : (⟨2, ![N, C]⟩ : Shape).Idx → α) (idx : IVec ⟨4, ![A, B, D, 1]⟩ w) (a : Fin A) (b : Fin B) (d : Fin D) (j : Fin C) :
    Host.gather (rowsGather4 N C A B D wf) x idx (ix4 a b d j) = x (ix2 (rowClamp N hN (idx (ix4 a b d 0))) j) := by
  unfold Host.gather
  congr 1
  funext e
  refine Fin.ext ?_
  match e with
  | ⟨0, _⟩ =>
    show (rowsGather4 N C A B D wf).start (ix4 a b d j) idx 0 + (rowsGather4 N C A B D wf).batchCoord (ix4 a b d j) 0
      + (rowsGather4 N C A B D wf).offCoord (ix4 a b d j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGather4 N C A B D wf).startIndexMap from List.mem_singleton.mpr rfl)]
    have hsi : (rowsGather4 N C A B D wf).siIdx (ix4 a b d j) ⟨List.idxOf (0 : Fin 2) (rowsGather4 N C A B D wf).startIndexMap,
        List.idxOf_lt_length_iff.2 (List.mem_singleton.mpr rfl)⟩ = ix4 a b d 0 := by
      funext b'; refine Fin.ext ?_
      match b' with
      | ⟨0, _⟩ => rfl
      | ⟨1, _⟩ => rfl
      | ⟨2, _⟩ => rfl
      | ⟨3, _⟩ => rfl
    rw [hsi]
    rfl
  | ⟨1, _⟩ =>
    show (rowsGather4 N C A B D wf).start (ix4 a b d j) idx 1 + (rowsGather4 N C A B D wf).batchCoord (ix4 a b d j) 1
      + (rowsGather4 N C A B D wf).offCoord (ix4 a b d j) 1 = j.val
    rw [GatherDims.batchCoord_eq_zero _ _ _ List.not_mem_nil]
    have hs : (rowsGather4 N C A B D wf).start (ix4 a b d j) idx 1 = 0 := by
      unfold GatherDims.start
      rw [dif_neg (show (1 : Fin 2) ∉ ([0] : List (Fin 2)) by decide)]
    rw [hs]
    simp only [Nat.add_zero, Nat.zero_add]
    unfold GatherDims.offCoord
    rw [dif_pos ((GatherDims.mem_sKept _ _).mpr ⟨(show (1 : Fin 2) ∉ ([0] : List (Fin 2)) by decide), List.not_mem_nil⟩)]
    rfl

end Cert.LibRows

end
-- ==== Proof.Spec.lean ====
/-
  An adaptive-input embedding: the vocabulary is cut into three bands, each with its own table of rows (of widths 1024,
  256 and 64) and its own projection to 1024 output columns. A token word x contributes, in band [prev, c), the product of
  the band's table row number clip(x - prev, 0, size - 1) with the band's projection, and nothing outside the band. The
  result at (b, s, o) is the sum of the three bands' contributions for the token at (b, s).

  This module names the words both programs compute (the band-local row word, the band test), states one band's
  contribution and the whole result as functions of the argument arrays, and proves the two facts the bridge needs:
  the clipped row word is never negative and never past the last row (so a gather that fills out-of-range rows with a
  junk value never fills), and a sum of products whose left factors are all masked by one bit is the masked sum.
-/
import Idealize.ShloMosaic.PureOps.Ideal
import Idealize.ShloMosaic.PureOps.Ideal.Laws
import Idealize.ShloMosaic.Lib.ValueIdx
import proofs.«403275_j15556371546628_3_alg».proof.Proof.LibRows

noncomputable section

namespace Cert.Bands

open Idealize.ShloMosaic Idealize.ShloMosaic.ValueIdx Cert.LibRows
open scoped BigOperators

/-- The token word moved to the band's origin and clipped to the band's rows: min(hi, max(0, x - prev)), signed. -/
def clipW (hi prev x : BitVec 32) : BitVec 32 :=
  IntOp.minsi hi (IntOp.maxsi 0#32 (IntOp.subi x prev))

/-- The row word a take computes from the clipped word: a negative word is wrapped by the table's size. -/
def locW (hi size prev x : BitVec 32) : BitVec 32 :=
  Scalar.select (IntOp.cmpi .slt (clipW hi prev x) 0#32) (IntOp.addi (clipW hi prev x) size) (clipW hi prev x)

/-- The band test prev ≤ x < c, signed, as one bit. -/
def inBand (prev c x : BitVec 32) : BitVec 1 :=
  IntOp.andi (IntOp.cmpi .sge x prev) (IntOp.cmpi .slt x c)

/-- A clipped word is not negative and not above the clip's upper end, when that end is not negative. -/
theorem clipW_range (hi prev x : BitVec 32) (hhi : hi.slt 0#32 = false) :
    (clipW hi prev x).slt 0#32 = false ∧ (0#32 : BitVec 32).sle (clipW hi prev x) = true
      ∧ (clipW hi prev x).sle hi = true := by
  unfold clipW IntOp.minsi IntOp.maxsi
  generalize IntOp.subi x prev = y
  simp only [BitVec.slt, BitVec.sle, decide_eq_false_iff_not, decide_eq_true_eq, not_lt] at hhi ⊢
  have h0 : (0#32 : BitVec 32).toInt = 0 := by decide
  rw [h0] at hhi ⊢
  by_cases hy : y.toInt < 0
  · simp only [hy, if_true]
    by_cases hh : hi.toInt < (0#32 : BitVec 32).toInt
    · rw [h0] at hh; omega
    · simp only [hh, if_false]; rw [h0]; omega
  · simp only [hy, if_false]
    by_cases hh : hi.toInt < y.toInt
    · simp only [hh, if_true]; omega
    · simp only [hh, if_false]; omega

/-- So the take's wrap never fires: the row word is the clipped word. -/
theorem locW_eq_clipW (hi size prev x : BitVec 32) (hhi : hi.slt 0#32 = false) : locW hi size prev x = clipW hi prev x := by
  unfold locW
  have e : IntOp.cmpi .slt (clipW hi prev x) 0#32 = 0#1 := by
    show BitVec.ofBool ((clipW hi prev x).slt 0#32) = 0#1
    rw [(clipW_range hi prev x hhi).1]; rfl
  rw [e]
  exact select_zero _ _

/-- And the take's range test on the row word, 0 ≤ w and w ≤ hi, is the bit 1. -/
theorem locW_inRange (hi size prev x : BitVec 32) (hhi : hi.slt 0#32 = false) :
    IntOp.andi (IntOp.cmpi .sge (locW hi size prev x) 0#32) (IntOp.cmpi .sle (locW hi size prev x) hi) = 1#1 := by
  rw [locW_eq_clipW hi size prev x hhi]
  have e1 : IntOp.cmpi .sge (clipW hi prev x) 0#32 = 1#1 := by
    show BitVec.ofBool ((0#32 : BitVec 32).sle (clipW hi prev x)) = 1#1
    rw [(clipW_range hi prev x hhi).2.1]; rfl
  have e2 : IntOp.cmpi .sle (clipW hi prev x) hi = 1#1 := by
    show BitVec.ofBool ((clipW hi prev x).sle hi) = 1#1
    rw [(clipW_range hi prev x hhi).2.2]; rfl
  rw [e1, e2]
  decide

/-- One band's contribution for the token word x at output column o: inside the band, row clip(x - prev) of the table E
    times row o of the projection P, summed over the band's width; outside the band, zero. -/
def bandVal {N D : Nat} (hN : 0 < N) (hi size prev c : BitVec 32) (E : (⟨2, ![N, D]⟩ : Shape).Idx → EReal)
    (P : (⟨2, ![1024, D]⟩ : Shape).Idx → EReal) (x : BitVec 32) (o : Fin 1024) : EReal :=
  Scalar.select (inBand prev c x)
    (∑ d : Fin D, E (ix2 (rowClamp N hN (locW hi size prev x)) d) * P (ix2 o d)) 0

/-- The whole result: at (b, s, o) the three bands' contributions for the token at (b, s), the first two added first. -/
def result (tok : (⟨2, ![8, 4096]⟩ : Shape).Idx → BitVec 32)
    (E0 : (⟨2, ![20000, 1024]⟩ : Shape).Idx → EReal) (E1 : (⟨2, ![40000, 256]⟩ : Shape).Idx → EReal)
    (E2 : (⟨2, ![190000, 64]⟩ : Shape).Idx → EReal) (P0 : (⟨2, ![1024, 1024]⟩ : Shape).Idx → EReal)
    (P1 : (⟨2, ![1024, 256]⟩ : Shape).Idx → EReal) (P2 : (⟨2, ![1024, 64]⟩ : Shape).Idx → EReal) :
    (⟨3, ![8, 4096, 1024]⟩ : Shape).Idx → EReal := fun i =>
  (bandVal (N := 20000) (D := 1024) (by decide) 19999#32 20000#32 0#32 20000#32 E0 P0 (tok (ix2 (i 0) (i 1))) (i 2)
    + bandVal (N := 40000) (D := 256) (by decide) 39999#32 40000#32 20000#32 60000#32 E1 P1 (tok (ix2 (i 0) (i 1))) (i 2))
    + bandVal (N := 190000) (D := 64) (by decide) 189999#32 190000#32 60000#32 250000#32 E2 P2 (tok (ix2 (i 0) (i 1))) (i 2)

/-- A sum of products whose left factors are all masked by one bit (kept where the bit is 1, zero elsewhere) is the
    sum of the products masked by that bit: where the bit is 0 every product is 0 · p = 0 on the extended reals. -/
theorem sum_select_mul {D : Nat} (bit : BitVec 1) (e p : Fin D → EReal) :
    ∑ d : Fin D, Scalar.select bit (e d) 0 * p d = Scalar.select bit (∑ d : Fin D, e d * p d) 0 := by
  unfold Scalar.select
  by_cases hb : bit = 1
  · simp only [hb, if_true]
  · simp only [hb, if_false, zero_mul, Finset.sum_const_zero]

end Cert.Bands

end
-- ==== Proof.RefValue.lean ====
/-
  The reference side of the adaptive-input embedding: the reference program, read one operation at a time, computes at every
  index (b, s, o) the specification's result — the sum over the three vocabulary bands of the band's contribution for the
  token at (b, s).

  Each band of the reference is the same five steps. The token word is moved to the band's origin and clipped to the
  band's rows, and a negative word is wrapped by the table's size: the band's row word. The band's table is gathered
  at that word, read signed and clamped into the table. The gathered row is multiplied with row o of the band's
  projection and summed over the band's width. The band test, the two signed comparisons of the token word with the
  band's ends and-ed to one bit, is broadcast over the columns. The product is kept where the test holds and replaced
  by zero elsewhere. All constants are scalars broadcast to the token array, so every word depends on the token at
  (b, s) alone, and after the index functions of the broadcasts and of the contraction are identified with plain
  coordinates both sides are the same words and the same sum. The three masked products are added to a zero array in
  band order, and the leading zero drops out.
-/
import proofs.«403275_j15556371546628_3_alg».proof.Proof.RefRead
import proofs.«403275_j15556371546628_3_alg».proof.Proof.Spec
import proofs.«403275_j15556371546628_3_alg».proof.Proof.LibRows
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.ReadP Cert.Bands Cert.LibRows
open Idealize.ShloMosaic Idealize.ShloMosaic.ValueIdx
open scoped BigOperators

/-! ## Band 0: rows of the 20000 x 1024 table, band [0, 20000) -/

/-- The band's row word at token (b, s): the token word moved to the band's origin, clipped to the band's rows, and
    wrapped by the table's size where negative. The constants are all scalar broadcasts, so the word depends on the
    token alone. -/
theorem row0 (x0 : (⟨S8x4096, .i32⟩ : BufTy).Contents (Elt Ideal)) (b : Fin 8) (s : Fin 4096) :
    val_main_v9 (F := Ideal) x0 (ix3 b s (0 : Fin 1)) = locW 19999#32 20000#32 0#32 (x0 (ix2 b s)) := by
  have e : idx_main_v9 (ix3 b s (0 : Fin 1)) = ix2 b s :=
    funext fun a => Fin.ext (by match a with | ⟨0, _⟩ => rfl | ⟨1, _⟩ => rfl)
  rw [val_main_v9_apply, e]
  simp only [val_main_v8_apply, val_main_v5_apply, val_main_v7_apply, val_main_v3_apply,
    val_main_call0_v4_apply, val_main_call0_v3_apply, val_main_c_1_apply,
    val_main_call0_v2_apply, val_main_call0_v1_apply, val_main_call0_v0_apply, val_main_c_0_apply,
    val_main_v2_apply, val_main_v1_apply, val_main_c_apply,
    val_main_v4_apply, val_main_c_2_apply, val_main_v6_apply, val_main_c_3_apply]
  rfl

/-- The band test at (b, s, o): the two comparisons of the token word with the band's ends, and-ed; it does not depend
    on the column o. -/
theorem mask0 (x0 : (⟨S8x4096, .i32⟩ : BufTy).Contents (Elt Ideal)) (b : Fin 8) (s : Fin 4096) (o : Fin 1024) :
    val_main_call1_v1 (F := Ideal) x0 (ix3 b s o) = inBand 0#32 20000#32 (x0 (ix2 b s)) := by
  have e : idx_main_v17 (idx_main_call1_v1 (ix3 b s o)) = ix2 b s :=
    funext fun a => Fin.ext (by match a with | ⟨0, _⟩ => rfl | ⟨1, _⟩ => rfl)
  rw [val_main_call1_v1_apply, val_main_v17_apply, e]
  simp only [val_main_v16_apply, val_main_v13_apply, val_main_v15_apply, val_main_v12_apply,
    val_main_v14_apply, val_main_c_4_apply, val_main_c_5_apply]
  rfl

/-- The gathered row at (b, s, k): column k of the table row the row word names, read signed and clamped into the
    table. -/
theorem gath0 (x0 : (⟨S8x4096, .i32⟩ : BufTy).Contents (Elt Ideal)) (x1 : (⟨S20000x1024, .f32⟩ : BufTy).Contents (Elt Ideal))
    (b : Fin 8) (s : Fin 4096) (k : Fin 1024) :
    val_main_v10 (F := Ideal) x0 x1 (ix3 b s k)
      = x1 (ix2 (rowClamp 20000 (by decide) (locW 19999#32 20000#32 0#32 (x0 (ix2 b s)))) k) := by
  have h : val_main_v10 (F := Ideal) x0 x1 (ix3 b s k)
      = x1 (ix2 (rowClamp 20000 (by decide) (val_main_v9 (F := Ideal) x0 (ix3 b s (0 : Fin 1)))) k) :=
    gather_rows3_apply (N := 20000) (C := 1024) (A := 8) (B := 4096) (by decide) _ x1 (val_main_v9 (F := Ideal) x0) b s k
  rw [h, row0]

/-- Band 0's contribution in the reference is the band's contribution of the specification: the masked product of the
    gathered row with row o of the projection, summed over the band's width. -/
theorem band0 (x0 : (⟨S8x4096, .i32⟩ : BufTy).Contents (Elt Ideal)) (x1 : (⟨S20000x1024, .f32⟩ : BufTy).Contents (Elt Ideal))
    (x4 : (⟨S1024x1024, .f32⟩ : BufTy).Contents (Elt Ideal)) (b : Fin 8) (s : Fin 4096) (o : Fin 1024) :
    val_main_v18 (F := Ideal) x0 x1 x4 (ix3 b s o)
      = bandVal (N := 20000) (D := 1024) (by decide) 19999#32 20000#32 0#32 20000#32 x1 x4 (x0 (ix2 b s)) o := by
  have hs : (∑ k : Fin 1024, val_main_v10 (F := Ideal) x0 x1 (lidx_main_v11 (ix3 b s o) k) * x4 (ridx_main_v11 (ix3 b s o) k))
      = ∑ d : Fin 1024, x1 (ix2 (rowClamp 20000 (by decide) (locW 19999#32 20000#32 0#32 (x0 (ix2 b s)))) d) * x4 (ix2 o d) := by
    refine Finset.sum_congr rfl fun k _ => ?_
    have el : lidx_main_v11 (ix3 b s o) k = ix3 b s k :=
      funext fun a => Fin.ext (by match a with | ⟨0, _⟩ => rfl | ⟨1, _⟩ => rfl | ⟨2, _⟩ => rfl)
    have er : ridx_main_v11 (ix3 b s o) k = ix2 o k :=
      funext fun a => Fin.ext (by match a with | ⟨0, _⟩ => rfl | ⟨1, _⟩ => rfl)
    rw [el, er, gath0]
  rw [val_main_v18_apply, mask0, val_main_v11_apply, hs, val_main_call1_v2_apply,
    val_main_call1_v0_apply, val_main_cst_6_apply, Ideal.ofBits_def, Ideal.ofBits_zero_f32]
  rfl

/-! ## Band 1: rows of the 40000 x 256 table, band [20000, 60000) -/

/-- The band's row word at token (b, s): the token word moved to the band's origin, clipped to the band's rows, and
    wrapped by the table's size where negative. The constants are all scalar broadcasts, so the word depends on the
    token alone. -/
theorem row1 (x0 : (⟨S8x4096, .i32⟩ : BufTy).Contents (Elt Ideal)) (b : Fin 8) (s : Fin 4096) :
    val_main_v28 (F := Ideal) x0 (ix3 b s (0 : Fin 1)) = locW 39999#32 40000#32 20000#32 (x0 (ix2 b s)) := by
  have e : idx_main_v28 (ix3 b s (0 : Fin 1)) = ix2 b s :=
    funext fun a => Fin.ext (by match a with | ⟨0, _⟩ => rfl | ⟨1, _⟩ => rfl)
  rw [val_main_v28_apply, e]
  simp only [val_main_v27_apply, val_main_v24_apply, val_main_v26_apply, val_main_v22_apply,
    val_main_call2_v4_apply, val_main_call2_v3_apply, val_main_c_9_apply,
    val_main_call2_v2_apply, val_main_call2_v1_apply, val_main_call2_v0_apply, val_main_c_8_apply,
    val_main_v21_apply, val_main_v20_apply, val_main_c_7_apply,
    val_main_v23_apply, val_main_c_10_apply, val_main_v25_apply, val_main_c_11_apply]
  rfl

/-- The band test at (b, s, o): the two comparisons of the token word with the band's ends, and-ed; it does not depend
    on the column o. -/
theorem mask1 (x0 : (⟨S8x4096, .i32⟩ : BufTy).Contents (Elt Ideal)) (b : Fin 8) (s : Fin 4096) (o : Fin 1024) :
    val_main_call3_v1 (F := Ideal) x0 (ix3 b s o) = inBand 20000#32 60000#32 (x0 (ix2 b s)) := by
  have e : idx_main_v36 (idx_main_call3_v1 (ix3 b s o)) = ix2 b s :=
    funext fun a => Fin.ext (by match a with | ⟨0, _⟩ => rfl | ⟨1, _⟩ => rfl)
  rw [val_main_call3_v1_apply, val_main_v36_apply, e]
  simp only [val_main_v35_apply, val_main_v32_apply, val_main_v34_apply, val_main_v31_apply,
    val_main_v33_apply, val_main_c_12_apply, val_main_c_13_apply]
  rfl

/-- The gathered row at (b, s, k): column k of the table row the row word names, read signed and clamped into the
    table. -/
theorem gath1 (x0 : (⟨S8x4096, .i32⟩ : BufTy).Contents (Elt Ideal)) (x2 : (⟨S40000x256, .f32⟩ : BufTy).Contents (Elt Ideal))
    (b : Fin 8) (s : Fin 4096) (k : Fin 256) :
    val_main_v29 (F := Ideal) x0 x2 (ix3 b s k)
      = x2 (ix2 (rowClamp 40000 (by decide) (locW 39999#32 40000#32 20000#32 (x0 (ix2 b s)))) k) := by
  have h : val_main_v29 (F := Ideal) x0 x2 (ix3 b s k)
      = x2 (ix2 (rowClamp 40000 (by decide) (val_main_v28 (F := Ideal) x0 (ix3 b s (0 : Fin 1)))) k) :=
    gather_rows3_apply (N := 40000) (C := 256) (A := 8) (B := 4096) (by decide) _ x2 (val_main_v28 (F := Ideal) x0) b s k
  rw [h, row1]

/-- Band 1's contribution in the reference is the band's contribution of the specification: the masked product of the
    gathered row with row o of the projection, summed over the band's width. -/
theorem band1 (x0 : (⟨S8x4096, .i32⟩ : BufTy).Contents (Elt Ideal)) (x2 : (⟨S40000x256, .f32⟩ : BufTy).Contents (Elt Ideal))
    (x5 : (⟨S1024x256, .f32⟩ : BufTy).Contents (Elt Ideal)) (b : Fin 8) (s : Fin 4096) (o : Fin 1024) :
    val_main_v37 (F := Ideal) x0 x2 x5 (ix3 b s o)
      = bandVal (N := 40000) (D := 256) (by decide) 39999#32 40000#32 20000#32 60000#32 x2 x5 (x0 (ix2 b s)) o := by
  have hs : (∑ k : Fin 256, val_main_v29 (F := Ideal) x0 x2 (lidx_main_v30 (ix3 b s o) k) * x5 (ridx_main_v30 (ix3 b s o) k))
      = ∑ d : Fin 256, x2 (ix2 (rowClamp 40000 (by decide) (locW 39999#32 40000#32 20000#32 (x0 (ix2 b s)))) d) * x5 (ix2 o d) := by
    refine Finset.sum_congr rfl fun k _ => ?_
    have el : lidx_main_v30 (ix3 b s o) k = ix3 b s k :=
      funext fun a => Fin.ext (by match a with | ⟨0, _⟩ => rfl | ⟨1, _⟩ => rfl | ⟨2, _⟩ => rfl)
    have er : ridx_main_v30 (ix3 b s o) k = ix2 o k :=
      funext fun a => Fin.ext (by match a with | ⟨0, _⟩ => rfl | ⟨1, _⟩ => rfl)
    rw [el, er, gath1]
  rw [val_main_v37_apply, mask1, val_main_v30_apply, hs, val_main_call3_v2_apply,
    val_main_call3_v0_apply, val_main_cst_14_apply, Ideal.ofBits_def, Ideal.ofBits_zero_f32]
  rfl

/-! ## Band 2: rows of the 190000 x 64 table, band [60000, 250000) -/

/-- The band's row word at token (b, s): the token word moved to the band's origin, clipped to the band's rows, and
    wrapped by the table's size where negative. The constants are all scalar broadcasts, so the word depends on the
    token alone. -/
theorem row2 (x0 : (⟨S8x4096, .i32⟩ : BufTy).Contents (Elt Ideal)) (b : Fin 8) (s : Fin 4096) :
    val_main_v47 (F := Ideal) x0 (ix3 b s (0 : Fin 1)) = locW 189999#32 190000#32 60000#32 (x0 (ix2 b s)) := by
  have e : idx_main_v47 (ix3 b s (0 : Fin 1)) = ix2 b s :=
    funext fun a => Fin.ext (by match a with | ⟨0, _⟩ => rfl | ⟨1, _⟩ => rfl)
  rw [val_main_v47_apply, e]
  simp only [val_main_v46_apply, val_main_v43_apply, val_main_v45_apply, val_main_v41_apply,
    val_main_call4_v4_apply, val_main_call4_v3_apply, val_main_c_17_apply,
    val_main_call4_v2_apply, val_main_call4_v1_apply, val_main_call4_v0_apply, val_main_c_16_apply,
    val_main_v40_apply, val_main_v39_apply, val_main_c_15_apply,
    val_main_v42_apply, val_main_c_18_apply, val_main_v44_apply, val_main_c_19_apply]
  rfl

/-- The band test at (b, s, o): the two comparisons of the token word with the band's ends, and-ed; it does not depend
    on the column o. -/
theorem mask2 (x0 : (⟨S8x4096, .i32⟩ : BufTy).Contents (Elt Ideal)) (b : Fin 8) (s : Fin 4096) (o : Fin 1024) :
    val_main_call5_v1 (F := Ideal) x0 (ix3 b s o) = inBand 60000#32 250000#32 (x0 (ix2 b s)) := by
  have e : idx_main_v55 (idx_main_call5_v1 (ix3 b s o)) = ix2 b s :=
    funext fun a => Fin.ext (by match a with | ⟨0, _⟩ => rfl | ⟨1, _⟩ => rfl)
  rw [val_main_call5_v1_apply, val_main_v55_apply, e]
  simp only [val_main_v54_apply, val_main_v51_apply, val_main_v53_apply, val_main_v50_apply,
    val_main_v52_apply, val_main_c_20_apply, val_main_c_21_apply]
  rfl

/-- The gathered row at (b, s, k): column k of the table row the row word names, read signed and clamped into the
    table. -/
theorem gath2 (x0 : (⟨S8x4096, .i32⟩ : BufTy).Contents (Elt Ideal)) (x3 : (⟨S190000x64, .f32⟩ : BufTy).Contents (Elt Ideal))
    (b : Fin 8) (s : Fin 4096) (k : Fin 64) :
    val_main_v48 (F := Ideal) x0 x3 (ix3 b s k)
      = x3 (ix2 (rowClamp 190000 (by decide) (locW 189999#32 190000#32 60000#32 (x0 (ix2 b s)))) k) := by
  have h : val_main_v48 (F := Ideal) x0 x3 (ix3 b s k)
      = x3 (ix2 (rowClamp 190000 (by decide) (val_main_v47 (F := Ideal) x0 (ix3 b s (0 : Fin 1)))) k) :=
    gather_rows3_apply (N := 190000) (C := 64) (A := 8) (B := 4096) (by decide) _ x3 (val_main_v47 (F := Ideal) x0) b s k
  rw [h, row2]

/-- Band 2's contribution in the reference is the band's contribution of the specification: the masked product of the
    gathered row with row o of the projection, summed over the band's width. -/
theorem band2 (x0 : (⟨S8x4096, .i32⟩ : BufTy).Contents (Elt Ideal)) (x3 : (⟨S190000x64, .f32⟩ : BufTy).Contents (Elt Ideal))
    (x6 : (⟨S1024x64, .f32⟩ : BufTy).Contents (Elt Ideal)) (b : Fin 8) (s : Fin 4096) (o : Fin 1024) :
    val_main_v56 (F := Ideal) x0 x3 x6 (ix3 b s o)
      = bandVal (N := 190000) (D := 64) (by decide) 189999#32 190000#32 60000#32 250000#32 x3 x6 (x0 (ix2 b s)) o := by
  have hs : (∑ k : Fin 64, val_main_v48 (F := Ideal) x0 x3 (lidx_main_v49 (ix3 b s o) k) * x6 (ridx_main_v49 (ix3 b s o) k))
      = ∑ d : Fin 64, x3 (ix2 (rowClamp 190000 (by decide) (locW 189999#32 190000#32 60000#32 (x0 (ix2 b s)))) d) * x6 (ix2 o d) := by
    refine Finset.sum_congr rfl fun k _ => ?_
    have el : lidx_main_v49 (ix3 b s o) k = ix3 b s k :=
      funext fun a => Fin.ext (by match a with | ⟨0, _⟩ => rfl | ⟨1, _⟩ => rfl | ⟨2, _⟩ => rfl)
    have er : ridx_main_v49 (ix3 b s o) k = ix2 o k :=
      funext fun a => Fin.ext (by match a with | ⟨0, _⟩ => rfl | ⟨1, _⟩ => rfl)
    rw [el, er, gath2]
  rw [val_main_v56_apply, mask2, val_main_v49_apply, hs, val_main_call5_v2_apply,
    val_main_call5_v0_apply, val_main_cst_22_apply, Ideal.ofBits_def, Ideal.ofBits_zero_f32]
  rfl

/-! ## The whole result -/

/-- The reference's result is the specification's: at (b, s, o) it is ((0 + w0) + w1) + w2 with w_j band j's masked
    product, and the leading zero is the additive unit. -/
theorem ref_eq (x0 : (⟨S8x4096, .i32⟩ : BufTy).Contents (Elt Ideal)) (x1 : (⟨S20000x1024, .f32⟩ : BufTy).Contents (Elt Ideal)) (x2 : (⟨S40000x256, .f32⟩ : BufTy).Contents (Elt Ideal)) (x3 : (⟨S190000x64, .f32⟩ : BufTy).Contents (Elt Ideal)) (x4 : (⟨S1024x1024, .f32⟩ : BufTy).Contents (Elt Ideal)) (x5 : (⟨S1024x256, .f32⟩ : BufTy).Contents (Elt Ideal)) (x6 : (⟨S1024x64, .f32⟩ : BufTy).Contents (Elt Ideal)) :
    Cert.ReferenceIdeal.ReadP.val_main_v57 (F := Ideal) x0 x1 x2 x3 x4 x5 x6 = Cert.Bands.result x0 x1 x2 x3 x4 x5 x6 := by
  funext i
  obtain ⟨b, s, o, rfl⟩ : ∃ (b : Fin 8) (s : Fin 4096) (o : Fin 1024), i = ix3 b s o := ⟨i 0, i 1, i 2, eq_ix3 i⟩
  rw [val_main_v57_apply, val_main_v38_apply, val_main_v19_apply, val_main_v0_apply, val_main_cst_apply,
    band0, band1, band2, Ideal.ofBits_def, Ideal.ofBits_zero_f32]
  simp only [Ideal.addf_def, zero_add]
  rfl

end Cert.ReferenceIdeal.RefValue

end
-- ==== Proof.LibPlainDot.lean ====
/-
  A plain product of two matrices at the ideal values, read at an entry.

  `DotDims.plain M K N` contracts the second axis of an `[M, K]` array with the first axis of a `[K, N]` array.
  At `Ideal` both a matrix unit's product onto a zero accumulator and the host's `dot_general` with these
  dimension numbers are, at entry `(i, j)`, the sum over `k < K` of `l (i, k) · r (k, j)` on the extended reals:
  the contraction index of a one-axis contraction is that axis's coordinate, the left operand is read at
  (row of the result, k) and the right operand at (k, column of the result). General in `M`, `K`, `N` and in the
  two operands' float formats.
-/
import Idealize.ShloMosaic.PureOps.Ideal.Laws
import Idealize.ShloMosaic.Lib.ValueIdx

noncomputable section

namespace Idealize.ShloMosaic.PlainDot

open Idealize.ShloMosaic Idealize.ShloMosaic.ValueIdx
open scoped BigOperators

variable {M K N : Nat}

/-- The left operand's index at result `i`, contraction index `q`: row `i 0`, -/
theorem lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- column the contracted coordinate. -/
theorem lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's index: row the contracted coordinate, -/
theorem rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- column `i 1`. -/
theorem rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction sum of a plain product at entry `(i, j)`, re-indexed by the contracted coordinate. -/
theorem sum_plain {α : Type} [AddCommMonoid α] (f : (⟨2, ![M, K]⟩ : Shape).Idx → (⟨2, ![K, N]⟩ : Shape).Idx → α)
    (i : Fin M) (j : Fin N) :
    ∑ q : (DotDims.plain M K N).contr.Idx,
        f ((DotDims.plain M K N).lhsIdx (ix2 i j) q) ((DotDims.plain M K N).rhsIdx (ix2 i j) q)
      = ∑ k : Fin K, f (ix2 i k) (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_0 _ _
      | ⟨1, _⟩ => exact (lhs_1 _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_0 _ _).trans hk
      | ⟨1, _⟩ => exact rhs_1 _ _)
  rw [el, er]

/-- A matrix unit's plain product onto a zero accumulator, at entry `(i, j)`. -/
theorem matmul_zero_apply {φ₁ φ₂ : FTy} (prec : Option ContractPrecision)
    (l : FVec Ideal ⟨2, ![M, K]⟩ φ₁) (r : FVec Ideal ⟨2, ![K, N]⟩ φ₂) (i : Fin M) (j : Fin N) :
    FloatOps.matmul (DotDims.plain M K N) prec l r (constant (F := Ideal) ⟨2, ![M, N]⟩ .f32 0x00000000#32) (ix2 i j)
      = ∑ k : Fin K, l (ix2 i k) * r (ix2 k j) := by
  rw [Ideal.matmul_constant_zero_apply]
  exact sum_plain (fun a b => l a * r b) i j

/-- The host's plain `dot_general`, at entry `(i, j)`. -/
theorem dotGeneral_apply {φ₁ φ₂ : FTy} (prec : Option ContractPrecision) (sched : HostSchedule)
    (l : FVec Ideal ⟨2, ![M, K]⟩ φ₁) (r : FVec Ideal ⟨2, ![K, N]⟩ φ₂) (i : Fin M) (j : Fin N) :
    FloatOps.dotGeneral (DotDims.plain M K N) prec sched l r (ix2 i j)
      = ∑ k : Fin K, l (ix2 i k) * r (ix2 k j) := by
  rw [Ideal.dotGeneral_apply]
  exact sum_plain (fun a b => l a * r b) i j

end Idealize.ShloMosaic.PlainDot

end
-- ==== Proof.KBody.lean ====
/-
  What one grid step of the kernel leaves in its output block, and that block read at an entry.

  The body stores three times into the whole output block: first the product of the first band's rows with the first
  projection, then what it reads back plus the second band's product, then what it reads back plus the third band's
  product. The block ends at the last store's value, and each read-back is the value of the store before it. So the
  block is ((rows0 · proj0) + (rows1 · proj1)) + (rows2 · proj2), each product a plain [1024, K] by [K, 1024]
  contraction onto a zero accumulator, which on the extended reals is the sum over k of the products of entries.
-/
import proofs.«403275_j15556371546628_3_alg».proof.Proof.Gen.KernelIdeal.Frame
import proofs.«403275_j15556371546628_3_alg».proof.Proof.LibPlainDot
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open scoped BigOperators

namespace Cert.KernelIdeal.BodyValue

open Cert.KernelIdeal Cert.KernelIdeal.Gen

variable {F : FTy → Type} [FloatOps F]

theorem hz : (![0, 0] : Fin 2 → Nat) = fun _ => 0 := funext fun a => by fin_cases a <;> rfl

/-- A load of the whole block after stores of which the LAST wrote the whole block reads that store's value. -/
theorem readCov_cons_unit_zero {Val : EltTy → Type} [∀ e, Nonempty (Val e)] {sig : RefSig} {κ : Kind} {sp : Space} {S : Shape} {e : EltTy}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-- The output block after the body: the third store's value over the second's over the first's. -/
theorem out_eq (c : Dev nD) (i : grid0.Coords) (arg1 : Memref sig .tc .vmem S1024x1024 .bf16) (harg1 : arg1.IsWhole) (arg2 : Memref sig .tc .vmem S1024x256 .bf16) (harg2 : arg2.IsWhole) (arg3 : Memref sig .tc .vmem S1024x64 .bf16) (harg3 : arg3.IsWhole) (arg4 : Memref sig .tc .vmem S1024x1024 .bf16) (harg4 : arg4.IsWhole) (arg5 : Memref sig .tc .vmem S256x1024 .bf16) (harg5 : arg5.IsWhole) (arg6 : Memref sig .tc .vmem S64x1024 .bf16) (harg6 : arg6.IsWhole) (arg7 : Memref sig .tc .vmem S1024x1024 .f32) (harg7 : arg7.IsWhole)
    (x0 : Vec F S1024x1024 .bf16) (x1 : Vec F S1024x256 .bf16) (x2 : Vec F S1024x64 .bf16) (x3 : Vec F S1024x1024 .bf16) (x4 : Vec F S256x1024 .bf16) (x5 : Vec F S64x1024 .bf16) :
    out0_A_6 (F := F) c i arg1 harg1 arg2 harg2 arg3 harg3 arg4 harg4 arg5 harg5 arg6 harg6 arg7 harg7 x0 x1 x2 x3 x4 x5 = k0_pay3 x2 x5 (k0_pay2 x1 x4 (k0_pay1 x0 x3)) := by
  unfold out0_A_6
  rw [View.read_writes_eq_canon _ _ _ (cover0_A_6 c i arg1 harg1 arg2 harg2 arg3 harg3 arg4 harg4 arg5 harg5 arg6 harg6 arg7 harg7 x0 x1 x2 x3 x4 x5)]
  unfold kernelRun0_A
  dsimp only
  sl_unfold_words
  rw [View.canon_cons_unit_zero (S := S1024x1024) hz, readCov_cons_unit_zero (S := S1024x1024) _ hz,
    View.readCov_unit_zero (S := S1024x1024) _ hz]
  simp only [View.readAt_eq_ld, harg1.read_unread, harg2.read_unread, harg3.read_unread, harg4.read_unread,
    harg5.read_unread, harg6.read_unread, View.ld_unit_zero (S := S1024x1024) hz, View.ld_unit_zero (S := S1024x256) hz,
    View.ld_unit_zero (S := S1024x64) hz, View.ld_unit_zero (S := S256x1024) hz, View.ld_unit_zero (S := S64x1024) hz]

/-- The first store's value at (r, o): row r of the first band's rows against column o of its projection. -/
theorem pay1_apply (x0 : Vec Ideal S1024x1024 .bf16) (x3 : Vec Ideal S1024x1024 .bf16) (r o : Fin 1024) :
    k0_pay1 (F := Ideal) x0 x3 (ix2 r o) = ∑ k : Fin 1024, x0 (ix2 r k) * x3 (ix2 k o) := by
  unfold k0_pay1
  simp only [shapeCast_self]
  exact PlainDot.matmul_zero_apply (M := 1024) (K := 1024) (N := 1024) none x0 x3 r o

/-- The second store's value at (r, o): what was read back plus the second band's product. -/
theorem pay2_apply (x1 : Vec Ideal S1024x256 .bf16) (x4 : Vec Ideal S256x1024 .bf16) (y : Vec Ideal S1024x1024 .f32) (r o : Fin 1024) :
    k0_pay2 (F := Ideal) x1 x4 y (ix2 r o) = y (ix2 r o) + ∑ k : Fin 256, x1 (ix2 r k) * x4 (ix2 k o) := by
  unfold k0_pay2
  simp only [shapeCast_self]
  exact congrArg (fun z => y (ix2 r o) + z) (PlainDot.matmul_zero_apply (M := 1024) (K := 256) (N := 1024) none x1 x4 r o)

/-- The third store's value at (r, o): what was read back plus the third band's product. -/
theorem pay3_apply (x2 : Vec Ideal S1024x64 .bf16) (x5 : Vec Ideal S64x1024 .bf16) (y : Vec Ideal S1024x1024 .f32) (r o : Fin 1024) :
    k0_pay3 (F := Ideal) x2 x5 y (ix2 r o) = y (ix2 r o) + ∑ k : Fin 64, x2 (ix2 r k) * x5 (ix2 k o) := by
  unfold k0_pay3
  simp only [shapeCast_self]
  exact congrArg (fun z => y (ix2 r o) + z) (PlainDot.matmul_zero_apply (M := 1024) (K := 64) (N := 1024) none x2 x5 r o)

/-- The output block at (r, o): the three bands' products, the first two added first. -/
theorem block_apply (x0 : Vec Ideal S1024x1024 .bf16) (x1 : Vec Ideal S1024x256 .bf16) (x2 : Vec Ideal S1024x64 .bf16)
    (x3 : Vec Ideal S1024x1024 .bf16) (x4 : Vec Ideal S256x1024 .bf16) (x5 : Vec Ideal S64x1024 .bf16) (r o : Fin 1024) :
    k0_pay3 (F := Ideal) x2 x5 (k0_pay2 x1 x4 (k0_pay1 x0 x3)) (ix2 r o)
      = (∑ k : Fin 1024, x0 (ix2 r k) * x3 (ix2 k o) + ∑ k : Fin 256, x1 (ix2 r k) * x4 (ix2 k o))
        + ∑ k : Fin 64, x2 (ix2 r k) * x5 (ix2 k o) := by
  rw [pay3_apply, pay2_apply, pay1_apply]

end Cert.KernelIdeal.BodyValue

end
-- ==== Proof.KValue.lean ====
/-
  The kernel's result array, from the blocks its grid steps write.

  The pallas_call runs 32 grid steps over a [32768, 1024] result. Step t reads rows t·1024 … t·1024 + 1023 of the three
  masked row arrays (widths 1024, 256, 64), the three whole transposed projections, and writes back rows
  t·1024 … t·1024 + 1023 of the result. So the result array at (n, o) is the three products at row n and column o
  (each a sum over the band's width), the first two added first; the 32 row blocks tile the array. The host line after
  the region reshapes [32768, 1024] to [8, 4096, 1024]: entry (b, s, o) is array entry (b·4096 + s, o).
-/
import proofs.«403275_j15556371546628_3_alg».proof.Proof.KBody
import Idealize.ShloMosaic.Lib.Pipeline.Value
import Idealize.ShloMosaic.Lib.StableHlo.Run
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.KValue

open Cert.KernelIdeal Cert.KernelIdeal.Gen

variable (m : (ℓ : Loc nD τ sig) → Buf (Elt Ideal) ℓ) (ρ : Dev nD → PrngReg)

/-- The three products at (n, o) of row arrays g0, g1, g2 with [K, 1024] arrays p0, p1, p2, the first two added first. -/
def prods (g0 : Vec Ideal S32768x1024 .bf16) (g1 : Vec Ideal S32768x256 .bf16) (g2 : Vec Ideal S32768x64 .bf16)
    (p0 : Vec Ideal S1024x1024 .bf16) (p1 : Vec Ideal S256x1024 .bf16) (p2 : Vec Ideal S64x1024 .bf16) :
    Vec Ideal S32768x1024 .f32 := fun i =>
  (∑ k : Fin 1024, g0 (ix2 (i 0) k) * p0 (ix2 k (i 1)) + ∑ k : Fin 256, g1 (ix2 (i 0) k) * p1 (ix2 k (i 1)))
    + ∑ k : Fin 64, g2 (ix2 (i 0) k) * p2 (ix2 k (i 1))

/-- The six arrays the region stages, as it finds them, by their literal types. -/
abbrev g0 (c : Dev nD) : Vec Ideal S32768x1024 .bf16 := V m c main_v12
abbrev g1 (c : Dev nD) : Vec Ideal S32768x256 .bf16 := V m c main_v26
abbrev g2 (c : Dev nD) : Vec Ideal S32768x64 .bf16 := V m c main_v40
abbrev p0 (c : Dev nD) : Vec Ideal S1024x1024 .bf16 := V m c main_v14
abbrev p1 (c : Dev nD) : Vec Ideal S256x1024 .bf16 := V m c main_v28
abbrev p2 (c : Dev nD) : Vec Ideal S64x1024 .bf16 := V m c main_v42

/-- The blocks a grid step reads, by their literal types. -/
abbrev b0 (c : Dev nD) (t : Fin cfg0.N) : Vec Ideal S1024x1024 .bf16 := iblk m c 0 t
abbrev b1 (c : Dev nD) (t : Fin cfg0.N) : Vec Ideal S1024x256 .bf16 := iblk m c 1 t
abbrev b2 (c : Dev nD) (t : Fin cfg0.N) : Vec Ideal S1024x64 .bf16 := iblk m c 2 t
abbrev b3 (c : Dev nD) (t : Fin cfg0.N) : Vec Ideal S1024x1024 .bf16 := iblk m c 3 t
abbrev b4 (c : Dev nD) (t : Fin cfg0.N) : Vec Ideal S256x1024 .bf16 := iblk m c 4 t
abbrev b5 (c : Dev nD) (t : Fin cfg0.N) : Vec Ideal S64x1024 .bf16 := iblk m c 5 t

/-- The result array after the region. -/
abbrev arr (c : Dev nD) : Vec Ideal S32768x1024 .f32 := prods (g0 m c) (g1 m c) (g2 m c) (p0 m c) (p1 m c) (p2 m c)

/-- The printed index maps over the grid: the row windows (0, 1, 2 and the result's 6) are at block (t, 0), the
    projections' windows (3, 4, 5) at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row r, column k of step t's block of the first row array is row t·1024 + r of the array. -/
theorem b0_apply (c : Dev nD) (t : Fin cfg0.N) (r : Fin 1024) (k : Fin 1024) (n : Fin 32768) (hn : n.val = t.val * 1024 + r.val) :
    b0 m c t (ix2 r k) = g0 m c (ix2 n k) := by
  obtain ⟨e0, e1, -⟩ := idx_facts t
  show iblk m c 0 t _ = V m c main_v12 _
  unfold iblk
  rw [View.read_apply]
  show V m c main_v12 _ = V m c main_v12 _
  congr 1
  funext a
  apply Fin.ext
  match a with
  | ⟨0, _⟩ => show win0_0.index t 0 * 1024 + 1 * r.val = n.val; rw [e0]; omega
  | ⟨1, _⟩ => show win0_0.index t 1 * 1024 + 1 * k.val = k.val; rw [e1]; omega

theorem b1_apply (c : Dev nD) (t : Fin cfg0.N) (r : Fin 1024) (k : Fin 256) (n : Fin 32768) (hn : n.val = t.val * 1024 + r.val) :
    b1 m c t (ix2 r k) = g1 m c (ix2 n k) := by
  obtain ⟨-, -, e0, e1, -⟩ := idx_facts t
  show iblk m c 1 t _ = V m c main_v26 _
  unfold iblk
  rw [View.read_apply]
  show V m c main_v26 _ = V m c main_v26 _
  congr 1
  funext a
  apply Fin.ext
  match a with
  | ⟨0, _⟩ => show win0_1.index t 0 * 1024 + 1 * r.val = n.val; rw [e0]; omega
  | ⟨1, _⟩ => show win0_1.index t 1 * 256 + 1 * k.val = k.val; rw [e1]; omega

theorem b2_apply (c : Dev nD) (t : Fin cfg0.N) (r : Fin 1024) (k : Fin 64) (n : Fin 32768) (hn : n.val = t.val * 1024 + r.val) :
    b2 m c t (ix2 r k) = g2 m c (ix2 n k) := by
  obtain ⟨-, -, -, -, e0, e1, -⟩ := idx_facts t
  show iblk m c 2 t _ = V m c main_v40 _
  unfold iblk
  rw [View.read_apply]
  show V m c main_v40 _ = V m c main_v40 _
  congr 1
  funext a
  apply Fin.ext
  match a with
  | ⟨0, _⟩ => show win0_2.index t 0 * 1024 + 1 * r.val = n.val; rw [e0]; omega
  | ⟨1, _⟩ => show win0_2.index t 1 * 64 + 1 * k.val = k.val; rw [e1]; omega

/-- The projections' blocks are the whole arrays. -/
theorem b3_apply (c : Dev nD) (t : Fin cfg0.N) (k : Fin 1024) (o : Fin 1024) : b3 m c t (ix2 k o) = p0 m c (ix2 k o) := by
  obtain ⟨-, -, -, -, -, -, e0, e1, -⟩ := idx_facts t
  show iblk m c 3 t _ = V m c main_v14 _
  unfold iblk
  rw [View.read_apply]
  show V m c main_v14 _ = V m c main_v14 _
  congr 1
  funext a
  apply Fin.ext
  match a with
  | ⟨0, _⟩ => show win0_3.index t 0 * 1024 + 1 * k.val = k.val; rw [e0]; omega
  | ⟨1, _⟩ => show win0_3.index t 1 * 1024 + 1 * o.val = o.val; rw [e1]; omega

theorem b4_apply (c : Dev nD) (t : Fin cfg0.N) (k : Fin 256) (o : Fin 1024) : b4 m c t (ix2 k o) = p1 m c (ix2 k o) := by
  obtain ⟨-, -, -, -, -, -, -, -, e0, e1, -⟩ := idx_facts t
  show iblk m c 4 t _ = V m c main_v28 _
  unfold iblk
  rw [View.read_apply]
  show V m c main_v28 _ = V m c main_v28 _
  congr 1
  funext a
  apply Fin.ext
  match a with
  | ⟨0, _⟩ => show win0_4.index t 0 * 256 + 1 * k.val = k.val; rw [e0]; omega
  | ⟨1, _⟩ => show win0_4.index t 1 * 1024 + 1 * o.val = o.val; rw [e1]; omega

theorem b5_apply (c : Dev nD) (t : Fin cfg0.N) (k : Fin 64) (o : Fin 1024) : b5 m c t (ix2 k o) = p2 m c (ix2 k o) := by
  obtain ⟨-, -, -, -, -, -, -, -, -, -, e0, e1, -⟩ := idx_facts t
  show iblk m c 5 t _ = V m c main_v42 _
  unfold iblk
  rw [View.read_apply]
  show V m c main_v42 _ = V m c main_v42 _
  congr 1
  funext a
  apply Fin.ext
  match a with
  | ⟨0, _⟩ => show win0_5.index t 0 * 64 + 1 * k.val = k.val; rw [e0]; omega
  | ⟨1, _⟩ => show win0_5.index t 1 * 1024 + 1 * o.val = o.val; rw [e1]; omega

/-- Row r, column o of what step t leaves in its output block is entry (t·1024 + r, o) of the products. -/
theorem block_eq (c : Dev nD) (t : Fin cfg0.N) (r o : Fin 1024) (n : Fin 32768) (hn : n.val = t.val * 1024 + r.val) :
    k0_pay3 (F := Ideal) (b2 m c t) (b5 m c t) (k0_pay2 (b1 m c t) (b4 m c t) (k0_pay1 (b0 m c t) (b3 m c t))) (ix2 r o)
      = arr m c (ix2 n o) := by
  rw [BodyValue.block_apply]
  show _ = (∑ k : Fin 1024, g0 m c (ix2 n k) * p0 m c (ix2 k o) + ∑ k : Fin 256, g1 m c (ix2 n k) * p1 m c (ix2 k o))
    + ∑ k : Fin 64, g2 m c (ix2 n k) * p2 m c (ix2 k o)
  refine congrArg₂ (· + ·) (congrArg₂ (· + ·) ?_ ?_) ?_
  · exact Finset.sum_congr rfl fun k _ => by rw [b0_apply m c t r k n hn, b3_apply]
  · exact Finset.sum_congr rfl fun k _ => by rw [b1_apply m c t r k n hn, b4_apply]
  · exact Finset.sum_congr rfl fun k _ => by rw [b2_apply m c t r k n hn, b5_apply]

/-- WHAT STEP t WRITES BACK is block t of the products of the arrays as the region finds them. -/
theorem flushed_eq (c : Dev nD) (t : Fin cfg0.N) :
    (dats m 0 c).flushed 6 t = ((cfg0.win 6).blk t).view.read (Elt Ideal) (arr m c) := by
  show (cfg0.win 6).cut (grid0.coords t) ((dats m 0 c).after 6 t) = _
  rw [after0_6]
  unfold outsAt0
  rw [show out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) (iblk m c 5 t)
      = k0_pay3 (b2 m c t) (b5 m c t) (k0_pay2 (b1 m c t) (b4 m c t) (k0_pay1 (b0 m c t) (b3 m c t))) from
    BodyValue.out_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) (iblk m c 5 t)]
  obtain ⟨-, -, -, -, -, -, -, -, -, -, -, -, e0, e1⟩ := idx_facts t
  funext j
  have hN : cfg0.N = 32 := N_0
  have ht : t.val < 32 := hN ▸ t.isLt
  have hj0 : (j 0).val < 1024 := (j 0).isLt
  have hj1 : (j 1).val < 1024 := (j 1).isLt
  show k0_pay3 (F := Ideal) (b2 m c t) (b5 m c t) (k0_pay2 (b1 m c t) (b4 m c t) (k0_pay1 (b0 m c t) (b3 m c t))) j
    = arr m c (((cfg0.win 6).blk t).view.emb j)
  have hemb : ((cfg0.win 6).blk t).view.emb j = ix2 (⟨t.val * 1024 + (j 0).val, by omega⟩ : Fin 32768) (⟨(j 1).val, hj1⟩ : Fin 1024) := by
    funext a
    apply Fin.ext
    match a with
    | ⟨0, _⟩ => show win0_6.index t 0 * 1024 + 1 * (j 0).val = t.val * 1024 + (j 0).val; rw [e0]; omega
    | ⟨1, _⟩ => show win0_6.index t 1 * 1024 + 1 * (j 1).val = (j 1).val; rw [e1]; omega
  have hj : (j : S1024x1024.Idx) = ix2 (⟨(j 0).val, hj0⟩ : Fin 1024) (⟨(j 1).val, hj1⟩ : Fin 1024) :=
    funext fun a => by match a with | ⟨0, _⟩ => rfl | ⟨1, _⟩ => rfl
  refine (congrArg (k0_pay3 (F := Ideal) (b2 m c t) (b5 m c t) (k0_pay2 (b1 m c t) (b4 m c t) (k0_pay1 (b0 m c t) (b3 m c t)))) hj).trans ?_
  refine (block_eq m c t ⟨(j 0).val, hj0⟩ ⟨(j 1).val, hj1⟩ ⟨t.val * 1024 + (j 0).val, by omega⟩ rfl).trans ?_
  exact congrArg (arr m c) hemb.symm

/-- An index of the array is in step t's block iff each coordinate is in the block's range on its axis. -/
theorem mem_blk (t : Fin cfg0.N) (i : S32768x1024.Idx) :
    i ∈ ((cfg0.win 6).blk t).view.set ↔ ∀ a : Fin 2, win0_6.index t a * S1024x1024.size a ≤ (i a).val ∧ (i a).val < win0_6.index t a * S1024x1024.size a + S1024x1024.size a := by
  show i ∈ ((View.whole main_v43).slice (win0_6.rect t)).set ↔ _
  rw [View.set_slice_whole, Rect.mem_set_unit]
  exact Iff.rfl

/-- Every index of the array is in some step's block: row n is in block n / 1024. -/
theorem cover (i : S32768x1024.Idx) : ∃ t : Fin cfg0.N, (cfg0.win 6).flush t = true ∧ i ∈ ((cfg0.win 6).blk t).view.set := by
  have hN : cfg0.N = 32 := N_0
  have hi0 : (i 0).val < 32768 := (i 0).isLt
  have hi1 : (i 1).val < 1024 := (i 1).isLt
  refine ⟨⟨(i 0).val / 1024, by rw [hN]; omega⟩, flush0_6 _, ?_⟩
  rw [mem_blk]
  obtain ⟨-, -, -, -, -, -, -, -, -, -, -, -, e0, e1⟩ := idx_facts ⟨(i 0).val / 1024, by rw [hN]; omega⟩
  intro a
  match a with
  | ⟨0, _⟩ => show win0_6.index _ (0 : Fin 2) * 1024 ≤ (i 0).val ∧ (i 0).val < win0_6.index _ (0 : Fin 2) * 1024 + 1024; rw [e0]; dsimp only; omega
  | ⟨1, _⟩ => show win0_6.index _ (1 : Fin 2) * 1024 ≤ (i 1).val ∧ (i 1).val < win0_6.index _ (1 : Fin 2) * 1024 + 1024; rw [e1]; omega

/-- THE ARRAY after the region: the products of the arrays as the region finds them. -/
theorem final (c : Dev nD) : (dats m 0 c).arrAt 6 cfg0.N = arr m c :=
  (dats m 0 c).arrAt_eq_of_cover 6 (arr m c) (fun t _ => flushed_eq m c t) (cover)

end Cert.KernelIdeal.KValue

end
-- ==== Proof.LibRowGather.lean ====
/-
  A gather of whole rows out of a table, one start index per result row, read at an index.

  The table has N rows; a row is either a vector of C entries or an A x B block. The start indices are an M x 1 array of
  words. Result row q is the table row named by word (q, 0), read as a signed integer and clamped into [0, N - 1]: a
  negative word names row 0, a word of N or more names row N - 1. Inside the row nothing moves: entry j of result row q
  is entry j of that table row, and entry (a, b) of result block q is entry (a, b) of that table block.

  Why. The operand index of a gather is, on each table axis, the clamped start plus a batching coordinate plus an offset
  coordinate. There is no batching axis, so the middle term is 0 on every axis. The row axis is the one axis in the
  start index map, so its start is the word clamped to N - 1 (the slice is one row tall), and it is collapsed, so it
  has no offset coordinate. Every other axis is outside the start index map, so its start is 0, and it is an offset
  axis, so its offset coordinate is the result's coordinate on the matching axis.

  Each of the two dimension records below is fixed by its sizes together with a proof of the gather's conditions on them;
  a record written with literal sizes and the same seven fields is an instance of one of them.
-/
import Idealize.ShloMosaic.Lib.ValueIdx
import proofs.«403275_j15556371546628_3_alg».proof.Proof.LibRows

noncomputable section

namespace Cert.LibRowGather

open Idealize.ShloMosaic Idealize.ShloMosaic.ValueIdx

/-- A gather of M rows of C columns out of a table of N rows, one start index per result row. -/
abbrev rowsGather2 (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

section Rows2

variable {N C M w : Nat} (wf : GatherDims.WF ⟨2, ![N, C]⟩ ⟨2, ![M, 1]⟩ ⟨2, ![M, C]⟩ [1] [0] [] [0] [] 1 ![1, C])
  (idx : IVec ⟨2, ![M, 1]⟩ w) (q : Fin M) (j : Fin C)

/-- Result entry (q, j) reads the one component of its start index at (q, 0). -/
private theorem rows2_siIdx :
    (rowsGather2 N C M wf).siIdx (ix2 q j) ⟨List.idxOf (0 : Fin 2) (rowsGather2 N C M wf).startIndexMap,
      List.idxOf_lt_length_iff.2 (List.mem_singleton.mpr rfl)⟩ = ix2 q 0 := by
  funext b
  refine Fin.ext ?_
  match b with
  | ⟨0, _⟩ => rfl
  | ⟨1, _⟩ => rfl

/-- On the row axis the slice starts at word (q, 0), read signed and clamped to the last row. -/
private theorem rows2_start0 :
    (rowsGather2 N C M wf).start (ix2 q j) idx 0 = min (idx (ix2 q 0)).toInt.toNat (N - 1) := by
  unfold GatherDims.start
  rw [dif_pos (show (0 : Fin 2) ∈ (rowsGather2 N C M wf).startIndexMap from List.mem_singleton.mpr rfl),
    rows2_siIdx wf q j]
  rfl

/-- The column axis is outside the start index map: its slice starts at 0. -/
private theorem rows2_start1 : (rowsGather2 N C M wf).start (ix2 q j) idx 1 = 0 := by
  unfold GatherDims.start
  rw [dif_neg (show (1 : Fin 2) ∉ ([0] : List (Fin 2)) by decide)]

/-- The row axis is collapsed: it has no offset coordinate. -/
private theorem rows2_off0 : (rowsGather2 N C M wf).offCoord (ix2 q j) 0 = 0 :=
  GatherDims.offCoord_eq_zero _ _ _ (fun h => ((GatherDims.mem_sKept _ _).mp h).1 (List.mem_singleton.mpr rfl))

/-- The column axis is the one offset axis: its offset coordinate is the result's column. -/
private theorem rows2_off1 : (rowsGather2 N C M wf).offCoord (ix2 q j) 1 = j.val := by
  unfold GatherDims.offCoord
  rw [dif_pos ((GatherDims.mem_sKept _ _).mpr ⟨(show (1 : Fin 2) ∉ ([0] : List (Fin 2)) by decide), List.not_mem_nil⟩)]
  rfl

end Rows2

/-- THE ROW GATHER READ AT (q, j): column j of the table row that word (q, 0) names. -/
theorem gather_rows2_apply {α : Type} {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (q : Fin M) (j : Fin C) :
    Host.gather (rowsGather2 N C M wf) x idx (ix2 q j) = x (ix2 (Cert.LibRows.rowClamp N hN (idx (ix2 q 0))) j) := by
  unfold Host.gather
  congr 1
  funext e
  refine Fin.ext ?_
  match e with
  | ⟨0, _⟩ =>
    show (rowsGather2 N C M wf).start (ix2 q j) idx 0 + (rowsGather2 N C M wf).batchCoord (ix2 q j) 0
      + (rowsGather2 N C M wf).offCoord (ix2 q j) 0 = min (idx (ix2 q 0)).toInt.toNat (N - 1)
    rw [rows2_start0 wf idx q j, GatherDims.batchCoord_eq_zero _ _ _ List.not_mem_nil, rows2_off0 wf q j]
    simp only [Nat.add_zero]
  | ⟨1, _⟩ =>
    show (rowsGather2 N C M wf).start (ix2 q j) idx 1 + (rowsGather2 N C M wf).batchCoord (ix2 q j) 1
      + (rowsGather2 N C M wf).offCoord (ix2 q j) 1 = j.val
    rw [rows2_start1 wf idx q j, GatherDims.batchCoord_eq_zero _ _ _ List.not_mem_nil, rows2_off1 wf q j]
    simp only [Nat.add_zero, Nat.zero_add]

/-- A gather of M blocks of A x B entries out of a table of N blocks, one start index per result block. -/
abbrev rowsGather2of3 (N A B M : Nat)
    (wf : GatherDims.WF ⟨3, ![N, A, B]⟩ ⟨2, ![M, 1]⟩ ⟨3, ![M, A, B]⟩ [1, 2] [0] [] [0] [] 1 ![1, A, B]) :
    GatherDims ⟨3, ![N, A, B]⟩ ⟨2, ![M, 1]⟩ ⟨3, ![M, A, B]⟩ where
  offsetDims := [1, 2]
  collapsedSliceDims := [0]
  operandBatchingDims := []
  startIndicesBatchingDims := []
  startIndexMap := [0]
  indexVectorDim := 1
  sliceSizes := ![1, A, B]
  wf := wf

section Rows3

variable {N A B M w : Nat}
  (wf : GatherDims.WF ⟨3, ![N, A, B]⟩ ⟨2, ![M, 1]⟩ ⟨3, ![M, A, B]⟩ [1, 2] [0] [] [0] [] 1 ![1, A, B])
  (idx : IVec ⟨2, ![M, 1]⟩ w) (q : Fin M) (a : Fin A) (b : Fin B)

/-- Result entry (q, a, b) reads the one component of its start index at (q, 0). -/
private theorem rows3_siIdx :
    (rowsGather2of3 N A B M wf).siIdx (ix3 q a b) ⟨List.idxOf (0 : Fin 3) (rowsGather2of3 N A B M wf).startIndexMap,
      List.idxOf_lt_length_iff.2 (List.mem_singleton.mpr rfl)⟩ = ix2 q 0 := by
  funext c
  refine Fin.ext ?_
  match c with
  | ⟨0, _⟩ => rfl
  | ⟨1, _⟩ => rfl

/-- On the block axis the slice starts at word (q, 0), read signed and clamped to the last block. -/
private theorem rows3_start0 :
    (rowsGather2of3 N A B M wf).start (ix3 q a b) idx 0 = min (idx (ix2 q 0)).toInt.toNat (N - 1) := by
  unfold GatherDims.start
  rw [dif_pos (show (0 : Fin 3) ∈ (rowsGather2of3 N A B M wf).startIndexMap from List.mem_singleton.mpr rfl),
    rows3_siIdx wf q a b]
  rfl

/-- The two axes inside a block are outside the start index map: their slices start at 0. -/
private theorem rows3_start1 : (rowsGather2of3 N A B M wf).start (ix3 q a b) idx 1 = 0 := by
  unfold GatherDims.start
  rw [dif_neg (show (1 : Fin 3) ∉ ([0] : List (Fin 3)) by decide)]

private theorem rows3_start2 : (rowsGather2of3 N A B M wf).start (ix3 q a b) idx 2 = 0 := by
  unfold GatherDims.start
  rw [dif_neg (show (2 : Fin 3) ∉ ([0] : List (Fin 3)) by decide)]

/-- The block axis is collapsed: it has no offset coordinate. -/
private theorem rows3_off0 : (rowsGather2of3 N A B M wf).offCoord (ix3 q a b) 0 = 0 :=
  GatherDims.offCoord_eq_zero _ _ _ (fun h => ((GatherDims.mem_sKept _ _).mp h).1 (List.mem_singleton.mpr rfl))

/-- The first axis inside a block is the first offset axis: its offset coordinate is the result's a. -/
private theorem rows3_off1 : (rowsGather2of3 N A B M wf).offCoord (ix3 q a b) 1 = a.val := by
  unfold GatherDims.offCoord
  rw [dif_pos ((GatherDims.mem_sKept _ _).mpr ⟨(show (1 : Fin 3) ∉ ([0] : List (Fin 3)) by decide), List.not_mem_nil⟩)]
  rfl

/-- The second axis inside a block is the second offset axis: its offset coordinate is the result's b. -/
private theorem rows3_off2 : (rowsGather2of3 N A B M wf).offCoord (ix3 q a b) 2 = b.val := by
  unfold GatherDims.offCoord
  rw [dif_pos ((GatherDims.mem_sKept _ _).mpr ⟨(show (2 : Fin 3) ∉ ([0] : List (Fin 3)) by decide), List.not_mem_nil⟩)]
  rfl

end Rows3

/-- THE BLOCK GATHER READ AT (q, a, b): entry (a, b) of the table block that word (q, 0) names. -/
theorem gather_rows2of3_apply {α : Type} {N A B M w : Nat} (hN : 0 < N)
    (wf : GatherDims.WF ⟨3, ![N, A, B]⟩ ⟨2, ![M, 1]⟩ ⟨3, ![M, A, B]⟩ [1, 2] [0] [] [0] [] 1 ![1, A, B])
    (x : (⟨3, ![N, A, B]⟩ : Shape).Idx → α) (idx : IVec ⟨2, ![M, 1]⟩ w) (q : Fin M) (a : Fin A) (b : Fin B) :
    Host.gather (rowsGather2of3 N A B M wf) x idx (ix3 q a b)
      = x (ix3 (Cert.LibRows.rowClamp N hN (idx (ix2 q 0))) a b) := by
  unfold Host.gather
  congr 1
  funext e
  refine Fin.ext ?_
  match e with
  | ⟨0, _⟩ =>
    show (rowsGather2of3 N A B M wf).start (ix3 q a b) idx 0 + (rowsGather2of3 N A B M wf).batchCoord (ix3 q a b) 0
      + (rowsGather2of3 N A B M wf).offCoord (ix3 q a b) 0 = min (idx (ix2 q 0)).toInt.toNat (N - 1)
    rw [rows3_start0 wf idx q a b, GatherDims.batchCoord_eq_zero _ _ _ List.not_mem_nil, rows3_off0 wf q a b]
    simp only [Nat.add_zero]
  | ⟨1, _⟩ =>
    show (rowsGather2of3 N A B M wf).start (ix3 q a b) idx 1 + (rowsGather2of3 N A B M wf).batchCoord (ix3 q a b) 1
      + (rowsGather2of3 N A B M wf).offCoord (ix3 q a b) 1 = a.val
    rw [rows3_start1 wf idx q a b, GatherDims.batchCoord_eq_zero _ _ _ List.not_mem_nil, rows3_off1 wf q a b]
    simp only [Nat.add_zero, Nat.zero_add]
  | ⟨2, _⟩ =>
    show (rowsGather2of3 N A B M wf).start (ix3 q a b) idx 2 + (rowsGather2of3 N A B M wf).batchCoord (ix3 q a b) 2
      + (rowsGather2of3 N A B M wf).offCoord (ix3 q a b) 2 = b.val
    rw [rows3_start2 wf idx q a b, GatherDims.batchCoord_eq_zero _ _ _ List.not_mem_nil, rows3_off2 wf q a b]
    simp only [Nat.add_zero, Nat.zero_add]

end Cert.LibRowGather

end
-- ==== Proof.LibTakeRows.lean ====
/-
  Rows taken from a table at clipped indices, then masked: the host program read at an entry.

  A vector T of M token words. For a band [prev, c) with a table E of N rows and D columns, the host computes the
  row word l = min(hi, max(0, T - prev)) (signed), wraps a negative l by the table's size, takes row l of the table in
  the mode that fills a row whose index is out of range with a junk value (the range test 0 ≤ l ≤ hi, reduced by "and"
  over an axis of extent one, selects between the gathered row and the junk), keeps the taken rows where
  prev ≤ T < c and replaces them by zero elsewhere, and narrows the result to a shorter float format.
  When hi is not negative the clipped word is always in range, so the fill never happens, and entry (n, k) of the
  result is: column k of table row clip(T n) if T n is in the band, zero otherwise (narrowing is the identity on
  the extended reals). General in M (not 1), N, D and the four constants.
-/
import Idealize.ShloMosaic.PureOps.Ideal
import Idealize.ShloMosaic.Lib.Pipeline.Value
import Idealize.ShloMosaic.Lib.ValueIdx
import Idealize.ShloMosaic.Lib.IdealHost
import proofs.«403275_j15556371546628_3_alg».proof.Proof.LibRowGather
import proofs.«403275_j15556371546628_3_alg».proof.Proof.Spec

noncomputable section

namespace Cert.TakeRows

open Idealize.ShloMosaic Idealize.ShloMosaic.ValueIdx Cert.LibRows Cert.LibRowGather Cert.Bands

/-! ## The broadcasts this program uses, read at an index -/

section Broadcasts
variable {α : Type}

/-- A scalar broadcast to any shape. -/
theorem bcast_scalar_apply {t : Shape} (h : (⟨0, ![]⟩ : Shape).BroadcastsInDim t ![]) (x : (⟨0, ![]⟩ : Shape).Idx → α) (j : t.Idx) :
    broadcastInDim t ![] h x j = x ix0 :=
  broadcastInDim_apply _ h x j ix0 (fun a => a.elim0)

/-- A vector [M] as a column [M, 1]. -/
theorem bcast_col_apply {M : Nat} (hM : M ≠ 1) (h : (⟨1, ![M]⟩ : Shape).BroadcastsInDim ⟨2, ![M, 1]⟩ ![0])
    (x : (⟨1, ![M]⟩ : Shape).Idx → α) (n : Fin M) (z : Fin 1) :
    broadcastInDim ⟨2, ![M, 1]⟩ ![0] h x (ix2 n z) = x (ix1 n) :=
  broadcastInDim_apply _ h x (ix2 n z) (ix1 n) (fun a => by
    match a with
    | ⟨0, _⟩ => show n.val = if M = 1 then 0 else n.val; rw [if_neg hM])

/-- A column [M, 1] repeated along D columns. -/
theorem bcast_cols_apply {M D : Nat} (hM : M ≠ 1) (h : (⟨2, ![M, 1]⟩ : Shape).BroadcastsInDim ⟨2, ![M, D]⟩ ![0, 1])
    (x : (⟨2, ![M, 1]⟩ : Shape).Idx → α) (n : Fin M) (k : Fin D) :
    broadcastInDim ⟨2, ![M, D]⟩ ![0, 1] h x (ix2 n k) = x (ix2 n 0) :=
  broadcastInDim_apply _ h x (ix2 n k) (ix2 n 0) (fun a => by
    match a with
    | ⟨0, _⟩ => show n.val = if M = 1 then 0 else n.val; rw [if_neg hM]
    | ⟨1, _⟩ => show 0 = if (1 : Nat) = 1 then 0 else k.val; rw [if_pos rfl])

/-- A vector [M] repeated along D columns. -/
theorem bcast_rows_apply {M D : Nat} (hM : M ≠ 1) (h : (⟨1, ![M]⟩ : Shape).BroadcastsInDim ⟨2, ![M, D]⟩ ![0])
    (x : (⟨1, ![M]⟩ : Shape).Idx → α) (n : Fin M) (k : Fin D) :
    broadcastInDim ⟨2, ![M, D]⟩ ![0] h x (ix2 n k) = x (ix1 n) :=
  broadcastInDim_apply _ h x (ix2 n k) (ix1 n) (fun a => by
    match a with
    | ⟨0, _⟩ => show n.val = if M = 1 then 0 else n.val; rw [if_neg hM])

end Broadcasts

/-! ## A reduction by "and" of bits that are all 1 -/

theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-- The host's reduce by "and" from 1 over bits that are all 1 is 1 at every result index. -/
theorem reduce_andi_one {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  unfold Host.reduce
  rw [hi]
  exact foldl_andi_one (fun n => x (s.rowMajor.symm n)) (fun n => hx _) _

/-! ## The take and the mask -/

section Take
variable {M N D : Nat}

/-- The clipped row words, as the host's vector operations. -/
abbrev clipV (h1 : (⟨0, ![]⟩ : Shape).BroadcastsInDim ⟨1, ![M]⟩ ![]) (hi prev : BitVec 32) (T : IVec ⟨1, ![M]⟩ 32) : IVec ⟨1, ![M]⟩ 32 :=
  minsi (broadcastInDim ⟨1, ![M]⟩ ![] h1 (id (constantI ⟨0, ![]⟩ 32 hi)))
    (maxsi (broadcastInDim ⟨1, ![M]⟩ ![] h1 (id (constantI ⟨0, ![]⟩ 32 0#32)))
      (subi T (broadcastInDim ⟨1, ![M]⟩ ![] h1 (constantI ⟨0, ![]⟩ 32 prev))))

/-- The take's start indices as a column: a negative clipped word wrapped by the table's size. -/
abbrev idxCol (h1 : (⟨0, ![]⟩ : Shape).BroadcastsInDim ⟨1, ![M]⟩ ![]) (h2 : (⟨1, ![M]⟩ : Shape).BroadcastsInDim ⟨2, ![M, 1]⟩ ![0])
    (hi size prev : BitVec 32) (T : IVec ⟨1, ![M]⟩ 32) : IVec ⟨2, ![M, 1]⟩ 32 :=
  broadcastInDim ⟨2, ![M, 1]⟩ ![0] h2
    (select (cmpi .slt (clipV h1 hi prev T) (broadcastInDim ⟨1, ![M]⟩ ![] h1 (constantI ⟨0, ![]⟩ 32 0#32)))
      (addi (clipV h1 hi prev T) (broadcastInDim ⟨1, ![M]⟩ ![] h1 (constantI ⟨0, ![]⟩ 32 size)))
      (clipV h1 hi prev T))

/-- Entry (n, 0) of the start indices is the row word of token n. -/
theorem idxCol_apply (hM : M ≠ 1) (h1 : (⟨0, ![]⟩ : Shape).BroadcastsInDim ⟨1, ![M]⟩ ![])
    (h2 : (⟨1, ![M]⟩ : Shape).BroadcastsInDim ⟨2, ![M, 1]⟩ ![0]) (hi size prev : BitVec 32) (T : IVec ⟨1, ![M]⟩ 32) (n : Fin M) (z : Fin 1) :
    idxCol h1 h2 hi size prev T (ix2 n z) = locW hi size prev (T (ix1 n)) := by
  unfold idxCol
  rw [bcast_col_apply hM]
  rfl

/-- THE TAKEN AND MASKED ROWS READ AT (n, k). -/
theorem takeMasked_apply (hM : M ≠ 1) (hN : 0 < N) (hi size prev cc : BitVec 32) (hhi : hi.slt 0#32 = false)
    (wf : GatherDims.WF ⟨2, ![N, D]⟩ ⟨2, ![M, 1]⟩ ⟨2, ![M, D]⟩ [1] [0] [] [0] [] 1 ![1, D])
    (h1 : (⟨0, ![]⟩ : Shape).BroadcastsInDim ⟨1, ![M]⟩ ![])
    (h2 : (⟨1, ![M]⟩ : Shape).BroadcastsInDim ⟨2, ![M, 1]⟩ ![0])
    (h3 : (⟨0, ![]⟩ : Shape).BroadcastsInDim ⟨2, ![M, 1]⟩ ![])
    (h4 : (⟨1, ![1]⟩ : Shape).BroadcastsInDim ⟨2, ![1, 1]⟩ ![1])
    (h5 : (⟨2, ![1, 1]⟩ : Shape).BroadcastsInDim ⟨2, ![M, 1]⟩ ![0, 1])
    (h6 : (⟨1, ![M]⟩ : Shape).BroadcastsInDim ⟨2, ![M, D]⟩ ![0])
    (h7 : (⟨0, ![]⟩ : Shape).BroadcastsInDim ⟨2, ![M, D]⟩ ![])
    (h8 : (⟨2, ![M, 1]⟩ : Shape).BroadcastsInDim ⟨2, ![M, D]⟩ ![0, 1])
    (hr : (⟨2, ![M, 1]⟩ : Shape).ReducesTo [1] ⟨1, ![M]⟩) (hu : 0 < (⟨0, ![]⟩ : Shape).numel)
    (hb : FTy.bf16.bits < FTy.f32.bits)
    (T : IVec ⟨1, ![M]⟩ 32) (E : FVec Ideal ⟨2, ![N, D]⟩ .f32) (n : Fin M) (k : Fin D) :
    (truncf .bf16
      (select
        (broadcastInDim ⟨2, ![M, D]⟩ ![0, 1] h8
          (broadcastInDim ⟨2, ![M, 1]⟩ ![0] h2
            (andi (cmpi .sge T (broadcastInDim ⟨1, ![M]⟩ ![] h1 (constantI ⟨0, ![]⟩ 32 prev)))
              (cmpi .slt T (broadcastInDim ⟨1, ![M]⟩ ![] h1 (constantI ⟨0, ![]⟩ 32 cc))))))
        (select
          (broadcastInDim ⟨2, ![M, D]⟩ ![0] h6
            (Host.reduce IntOp.andi
              (andi (cmpi .sge (idxCol h1 h2 hi size prev T) (broadcastInDim ⟨2, ![M, 1]⟩ ![] h3 (constantI ⟨0, ![]⟩ 32 0#32)))
                (cmpi .sle (idxCol h1 h2 hi size prev T)
                  (broadcastInDim ⟨2, ![M, 1]⟩ ![0, 1] h5 (broadcastInDim ⟨2, ![1, 1]⟩ ![1] h4 (constantI ⟨1, ![1]⟩ 32 hi)))))
              (constantI ⟨0, ![]⟩ 1 1#1) hr hu))
          (Host.gather (rowsGather2 N D M wf) E (idxCol h1 h2 hi size prev T))
          (broadcastInDim ⟨2, ![M, D]⟩ ![] h7 (constant (F := Ideal) ⟨0, ![]⟩ .f32 0x7FC00000#32)))
        (broadcastInDim ⟨2, ![M, D]⟩ ![] h7 (id (constant (F := Ideal) ⟨0, ![]⟩ .f32 0x00000000#32))))
      hb : FVec Ideal ⟨2, ![M, D]⟩ .bf16) (ix2 n k)
    = Scalar.select (inBand prev cc (T (ix1 n))) (E (ix2 (rowClamp N hN (locW hi size prev (T (ix1 n)))) k)) 0 := by
  have hred : ∀ j, Host.reduce IntOp.andi
      (andi (cmpi .sge (idxCol h1 h2 hi size prev T) (broadcastInDim ⟨2, ![M, 1]⟩ ![] h3 (constantI ⟨0, ![]⟩ 32 0#32)))
        (cmpi .sle (idxCol h1 h2 hi size prev T)
          (broadcastInDim ⟨2, ![M, 1]⟩ ![0, 1] h5 (broadcastInDim ⟨2, ![1, 1]⟩ ![1] h4 (constantI ⟨1, ![1]⟩ 32 hi)))))
      (constantI ⟨0, ![]⟩ 1 1#1) hr hu j = 1#1 := fun j =>
    reduce_andi_one _ _ hr hu (fun i => by
      obtain ⟨q, z, rfl⟩ : ∃ (q : Fin M) (z : Fin 1), i = ix2 q z := ⟨i 0, i 1, eq_ix2 i⟩
      show IntOp.andi (IntOp.cmpi .sge (idxCol h1 h2 hi size prev T (ix2 q z)) 0#32)
        (IntOp.cmpi .sle (idxCol h1 h2 hi size prev T (ix2 q z)) hi) = 1#1
      rw [idxCol_apply hM]
      exact locW_inRange hi size prev _ hhi) (fun _ => rfl) j
  rw [truncf_apply, select_apply, bcast_cols_apply hM, bcast_col_apply hM, select_apply, bcast_rows_apply hM, hred,
    select_one, gather_rows2_apply hN wf, idxCol_apply hM]
  show Scalar.select (inBand prev cc (T (ix1 n))) _ (Ideal.ofBits .f32 0x00000000#32) = _
  rw [Ideal.ofBits_zero_f32]

end Take

end Cert.TakeRows

end
-- ==== Proof.KHost.lean ====
/-
  The arrays the kernel's region is launched on, read at an entry.

  Before the pallas_call the host flattens the [8, 4096] tokens to 32768 words and, for each of the three bands,
  takes the band's table rows at the clipped token words, zeroes the rows of tokens outside the band, and narrows
  them to bf16; it also narrows and transposes each projection. Read at an entry on the extended reals: a masked
  row entry is the table entry where the token is in the band and zero elsewhere; a transposed projection entry
  (k, o) is the projection's entry (o, k); flattened token n = b·4096 + s is token (b, s).
-/
import proofs.«403275_j15556371546628_3_alg».proof.Proof.Gen.KernelIdeal.Frame
import proofs.«403275_j15556371546628_3_alg».proof.Proof.LibTakeRows
import Idealize.ShloMosaic.Lib.Pipeline.Value
import Idealize.ShloMosaic.Lib.StableHlo.Run
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx Idealize.ShloMosaic.StableHlo

namespace Cert.KernelIdeal.HostValue

open Cert.KernelIdeal Cert.KernelIdeal.Gen Cert.Bands Cert.LibRows

variable (m : (ℓ : Loc nD τ sig) → Buf (Elt Ideal) ℓ)

/-- The token words flattened row-major to one vector of 32768. -/
abbrev tokF (c : Dev nD) : IVec S32768 32 := fun i =>
  shapeCast S32768 (m ((c : Thread nD τ).loc main_arg0)) shapeCasts_S8x4096_S32768 i

/-- The three tables and the three projections, by their literal types. -/
abbrev tab0 (c : Dev nD) : FVec Ideal S20000x1024 .f32 := m ((c : Thread nD τ).loc main_arg1)
abbrev tab1 (c : Dev nD) : FVec Ideal S40000x256 .f32 := m ((c : Thread nD τ).loc main_arg2)
abbrev tab2 (c : Dev nD) : FVec Ideal S190000x64 .f32 := m ((c : Thread nD τ).loc main_arg3)
abbrev prj0 (c : Dev nD) : FVec Ideal S1024x1024 .f32 := m ((c : Thread nD τ).loc main_arg4)
abbrev prj1 (c : Dev nD) : FVec Ideal S1024x256 .f32 := m ((c : Thread nD τ).loc main_arg5)
abbrev prj2 (c : Dev nD) : FVec Ideal S1024x64 .f32 := m ((c : Thread nD τ).loc main_arg6)

/-- Flattened token n = b·4096 + s is token (b, s). -/
theorem tok_apply (c : Dev nD) (n : Fin 32768) (b : Fin 8) (s : Fin 4096) (hn : n.val = b.val * 4096 + s.val) :
    tokF m c (ix1 n) = (m ((c : Thread nD τ).loc main_arg0) : IVec S8x4096 32) (ix2 b s) :=
  shapeCast_apply _ _ (ix1 n) (ix2 b s) (by
    rw [Shape.rowMajor_val_two, Shape.rowMajor_val_one]
    show b.val * 4096 + s.val = n.val
    omega)

set_option maxHeartbeats 4000000 in
/-- Entry (n, k) of the band's masked rows as the region finds them: column k of the table row the clipped token
    word names where the token is in the band, zero elsewhere. -/
theorem g0_apply (c : Dev nD) (n : Fin 32768) (k : Fin 1024) :
    (V m c main_v12 : Vec Ideal S32768x1024 .bf16) (ix2 n k)
      = Scalar.select (inBand 0#32 20000#32 (tokF m c (ix1 n)))
          (tab0 m c
            (ix2 (rowClamp 20000 (by decide) (locW 19999#32 20000#32 0#32 (tokF m c (ix1 n)))) k)) (0 : EReal) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append, List.nil_append]
  after_results_simp
  simp only [StableHlo.TRef.ofBuf, StableHlo.TRef.toBuf, cast_eq]
  exact Cert.TakeRows.takeMasked_apply (M := 32768) (N := 20000) (D := 1024) (by decide) (by decide) 19999#32 20000#32 0#32 20000#32
    (by decide) _ _ _ _ _ _ _ _ _ _ _ _ (tokF m c) _ n k

set_option maxHeartbeats 4000000 in
/-- Entry (n, k) of the band's masked rows as the region finds them: column k of the table row the clipped token
    word names where the token is in the band, zero elsewhere. -/
theorem g1_apply (c : Dev nD) (n : Fin 32768) (k : Fin 256) :
    (V m c main_v26 : Vec Ideal S32768x256 .bf16) (ix2 n k)
      = Scalar.select (inBand 20000#32 60000#32 (tokF m c (ix1 n)))
          (tab1 m c
            (ix2 (rowClamp 40000 (by decide) (locW 39999#32 40000#32 20000#32 (tokF m c (ix1 n)))) k)) (0 : EReal) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append, List.nil_append]
  after_results_simp
  simp only [StableHlo.TRef.ofBuf, StableHlo.TRef.toBuf, cast_eq]
  exact Cert.TakeRows.takeMasked_apply (M := 32768) (N := 40000) (D := 256) (by decide) (by decide) 39999#32 40000#32 20000#32 60000#32
    (by decide) _ _ _ _ _ _ _ _ _ _ _ _ (tokF m c) _ n k

set_option maxHeartbeats 4000000 in
/-- Entry (n, k) of the band's masked rows as the region finds them: column k of the table row the clipped token
    word names where the token is in the band, zero elsewhere. -/
theorem g2_apply (c : Dev nD) (n : Fin 32768) (k : Fin 64) :
    (V m c main_v40 : Vec Ideal S32768x64 .bf16) (ix2 n k)
      = Scalar.select (inBand 60000#32 250000#32 (tokF m c (ix1 n)))
          (tab2 m c
            (ix2 (rowClamp 190000 (by decide) (locW 189999#32 190000#32 60000#32 (tokF m c (ix1 n)))) k)) (0 : EReal) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append, List.nil_append]
  after_results_simp
  simp only [StableHlo.TRef.ofBuf, StableHlo.TRef.toBuf, cast_eq]
  exact Cert.TakeRows.takeMasked_apply (M := 32768) (N := 190000) (D := 64) (by decide) (by decide) 189999#32 190000#32 60000#32 250000#32
    (by decide) _ _ _ _ _ _ _ _ _ _ _ _ (tokF m c) _ n k

set_option maxHeartbeats 4000000 in
/-- Entry (k, o) of the transposed projection as the region finds it is entry (o, k) of the projection. -/
theorem p0_apply (c : Dev nD) (k : Fin 1024) (o : Fin 1024) :
    (V m c main_v14 : Vec Ideal S1024x1024 .bf16) (ix2 k o) = prj0 m c (ix2 o k) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append, List.nil_append]
  after_results_simp
  exact transpose_apply _ _ _ (ix2 k o) (ix2 o k) (fun b => by
    match b with
    | ⟨0, _⟩ => rfl
    | ⟨1, _⟩ => rfl)

set_option maxHeartbeats 4000000 in
/-- Entry (k, o) of the transposed projection as the region finds it is entry (o, k) of the projection. -/
theorem p1_apply (c : Dev nD) (k : Fin 256) (o : Fin 1024) :
    (V m c main_v28 : Vec Ideal S256x1024 .bf16) (ix2 k o) = prj1 m c (ix2 o k) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append, List.nil_append]
  after_results_simp
  exact transpose_apply _ _ _ (ix2 k o) (ix2 o k) (fun b => by
    match b with
    | ⟨0, _⟩ => rfl
    | ⟨1, _⟩ => rfl)

set_option maxHeartbeats 4000000 in
/-- Entry (k, o) of the transposed projection as the region finds it is entry (o, k) of the projection. -/
theorem p2_apply (c : Dev nD) (k : Fin 64) (o : Fin 1024) :
    (V m c main_v42 : Vec Ideal S64x1024 .bf16) (ix2 k o) = prj2 m c (ix2 o k) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append, List.nil_append]
  after_results_simp
  exact transpose_apply _ _ _ (ix2 k o) (ix2 o k) (fun b => by
    match b with
    | ⟨0, _⟩ => rfl
    | ⟨1, _⟩ => rfl)

end Cert.KernelIdeal.HostValue

end
-- ==== Proof.KRun.lean ====
/-
  The kernel's run, read: its result is the specification's function of the argument arrays.

  The result array after the region is the three products of the launched arrays (the blocks-to-array module); the
  launched arrays are the masked table rows and the transposed projections (the host-prologue module). A sum over the
  band's width of (masked table entry) times (projection entry) is the masked sum, because every row of a token is
  masked by the same bit; that is one band's contribution. The host line after the region reshapes [32768, 1024] to
  [8, 4096, 1024], and flattened row b·4096 + s carries token (b, s).
-/
import proofs.«403275_j15556371546628_3_alg».proof.Proof.KValue
import proofs.«403275_j15556371546628_3_alg».proof.Proof.KHost
import proofs.«403275_j15556371546628_3_alg».proof.Proof.Spec
import Idealize.ShloMosaic.Lib.Pipeline.Value
import Idealize.ShloMosaic.Lib.StableHlo.Run
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx Idealize.ShloMosaic.StableHlo
open Idealize.ShloMosaic.Pipeline (Dat)
open scoped BigOperators

namespace Cert.KernelIdeal.KRun

open Cert.KernelIdeal Cert.KernelIdeal.Gen Cert.KernelIdeal.KValue Cert.KernelIdeal.HostValue Cert.Bands Cert.LibRows

variable (m : (ℓ : Loc nD τ sig) → Buf (Elt Ideal) ℓ) (ρ : Dev nD → PrngReg)

/-- The specification's result of this memory's argument arrays. -/
abbrev spec (c : Dev nD) : Vec Ideal S8x4096x1024 .f32 :=
  Cert.Bands.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

/-- One band: the sum over the band's width of masked table entries times projection entries is the band's
    contribution. -/
theorem band_sum {N D : Nat} (hN : 0 < N) (hi size prev cc : BitVec 32) (E : (⟨2, ![N, D]⟩ : Shape).Idx → EReal)
    (P : (⟨2, ![1024, D]⟩ : Shape).Idx → EReal) (x : BitVec 32) (o : Fin 1024) (g : Fin D → EReal) (p : Fin D → EReal)
    (hg : ∀ k, g k = Scalar.select (inBand prev cc x) (E (ix2 (rowClamp N hN (locW hi size prev x)) k)) 0)
    (hp : ∀ k, p k = P (ix2 o k)) :
    ∑ k : Fin D, g k * p k = bandVal hN hi size prev cc E P x o := by
  unfold bandVal
  rw [← sum_select_mul]
  exact Finset.sum_congr rfl fun k _ => by rw [hg k, hp k]

/-- Entry (b·4096 + s, o) of the result array is the specification's entry (b, s, o). -/
theorem arr_apply (c : Dev nD) (b : Fin 8) (s : Fin 4096) (o : Fin 1024) (n : Fin 32768) (hn : n.val = b.val * 4096 + s.val) :
    arr m c (ix2 n o) = spec m c (ix3 b s o) := by
  have ht := tok_apply m c n b s hn
  show (∑ k : Fin 1024, g0 m c (ix2 n k) * p0 m c (ix2 k o) + ∑ k : Fin 256, g1 m c (ix2 n k) * p1 m c (ix2 k o))
      + ∑ k : Fin 64, g2 m c (ix2 n k) * p2 m c (ix2 k o)
    = (bandVal (N := 20000) (D := 1024) (by decide) 19999#32 20000#32 0#32 20000#32 (m ((c.tc : Thread nD τ).loc main_arg1)) (m ((c.tc : Thread nD τ).loc main_arg4))
          ((m ((c.tc : Thread nD τ).loc main_arg0) : IVec S8x4096 32) (ix2 b s)) o
        + bandVal (N := 40000) (D := 256) (by decide) 39999#32 40000#32 20000#32 60000#32 (m ((c.tc : Thread nD τ).loc main_arg2)) (m ((c.tc : Thread nD τ).loc main_arg5))
          ((m ((c.tc : Thread nD τ).loc main_arg0) : IVec S8x4096 32) (ix2 b s)) o)
      + bandVal (N := 190000) (D := 64) (by decide) 189999#32 190000#32 60000#32 250000#32 (m ((c.tc : Thread nD τ).loc main_arg3)) (m ((c.tc : Thread nD τ).loc main_arg6))
          ((m ((c.tc : Thread nD τ).loc main_arg0) : IVec S8x4096 32) (ix2 b s)) o
  refine congrArg₂ (· + ·) (congrArg₂ (· + ·) ?_ ?_) ?_
  · exact band_sum _ _ _ _ _ _ _ _ o _ _ (fun k => (g0_apply m c n k).trans (by rw [ht])) (fun k => p0_apply m c k o)
  · exact band_sum _ _ _ _ _ _ _ _ o _ _ (fun k => (g1_apply m c n k).trans (by rw [ht])) (fun k => p1_apply m c k o)
  · exact band_sum _ _ _ _ _ _ _ _ o _ _ (fun k => (g2_apply m c n k).trans (by rw [ht])) (fun k => p2_apply m c k o)

/-- The host line after the region: the reshaped result array is the specification's result. -/
theorem tail_eq (c : Dev nD) : Pipeline.afterTail₀ cfgs (dats m) 0 (V0 m) [hostOps1] c main_v44 = spec m c := by
  unfold Pipeline.afterTail₀
  show StableHlo.after hostOps1 _ (Proc.devRef .tc main_v44) = _
  after_results_simp
  funext i
  obtain ⟨b, s, o, rfl⟩ : ∃ (b : Fin 8) (s : Fin 4096) (o : Fin 1024), i = ix3 b s o := ⟨i 0, i 1, i 2, eq_ix3 i⟩
  have hb : b.val < 8 := b.isLt
  have hs : s.val < 4096 := s.isLt
  show shapeCast S8x4096x1024 (Pipeline.withArrays (cfgs 0).spec c (V0 m c) (fun w => (dats m 0 c).arrAt w (cfgs 0).N)
    (Proc.tc.devRef main_v43)) shapeCasts_S32768x1024_S8x4096x1024 (ix3 b s o) = _
  rw [show Pipeline.withArrays (cfgs 0).spec c (V0 m c) (fun w => (dats m 0 c).arrAt w (cfgs 0).N) (Proc.tc.devRef main_v43)
      = arr m c from (Pipeline.withArrays_arr spec0 launch0.win.arr_inj c _ _ 6).trans (final m c)]
  refine (shapeCast_apply _ _ (ix3 b s o) (ix2 (⟨b.val * 4096 + s.val, by omega⟩ : Fin 32768) o) (by
    rw [Shape.rowMajor_val_two, Shape.rowMajor_val_three]
    rfl)).trans ?_
  exact arr_apply m c b s o _ rfl

/-- THE KERNEL'S RUN: every weakly fair execution terminates with the result at the specification's function of the
    argument arrays, and the argument arrays unchanged. -/
theorem run : θ_run defs (onTc (τ := τ) (main (F := Ideal))) ⟨m, fun _ => 0, ρ⟩ fun r => ∀ c : Dev nD,
      r.2.mem ((c.tc : Thread nD τ).loc main_v44) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h c).2 main_v44 (Pipeline.mem_restRefs_of main_v44 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩) (run_main m ρ)

end Cert.KernelIdeal.KRun

end
-- ==== Proof.lean ====
/-
  An adaptive-input embedding, kernel against reference, over the extended reals.

  The vocabulary is cut into three bands [0, 20000), [20000, 60000), [60000, 250000), each with its own table of rows
  (widths 1024, 256, 64) and its own projection to 1024 columns. For a token word x, band [prev, c) contributes
  the product of table row clip(x - prev, 0, size - 1) with the projection, and nothing when x is outside the band; the
  result at (b, s, o) is the sum of the three contributions for the token at (b, s).

  The reference gathers the rows, multiplies, masks the products by the band test and adds them to a zero array. The
  kernel masks the gathered ROWS on the host (a row take that would fill out-of-range rows with a junk value, which the
  clip rules out), transposes the projections, and one pallas_call of 32 grid steps forms, per block of 1024 tokens, the
  three products and adds them in the output block; the host then reshapes [32768, 1024] to [8, 4096, 1024].
  Both are the same function: a row masked to zero gives products 0 · p = 0 on the extended reals, so masking the rows is
  masking the product; the two sums differ by a leading zero; format changes are the identity at the ideal values.
  No finiteness of the inputs is used.

  The kernel's frames are the generated ones; the reference's frame is its run with the result dropped.
-/
import proofs.«403275_j15556371546628_3_alg».proof.Defs
import proofs.«403275_j15556371546628_3_alg».proof.Proof.Gen.Kernel
import proofs.«403275_j15556371546628_3_alg».proof.Proof.Gen.Kernel.Skeleton
import proofs.«403275_j15556371546628_3_alg».proof.Proof.Gen.Kernel.Launch
import proofs.«403275_j15556371546628_3_alg».proof.Proof.Gen.Kernel.Points
import proofs.«403275_j15556371546628_3_alg».proof.Proof.Gen.Kernel.Frame
import proofs.«403275_j15556371546628_3_alg».proof.Proof.Gen.KernelIdeal
import proofs.«403275_j15556371546628_3_alg».proof.Proof.Gen.KernelIdeal.Skeleton
import proofs.«403275_j15556371546628_3_alg».proof.Proof.Gen.KernelIdeal.Launch
import proofs.«403275_j15556371546628_3_alg».proof.Proof.Gen.KernelIdeal.Points
import proofs.«403275_j15556371546628_3_alg».proof.Proof.Gen.KernelIdeal.Frame
import proofs.«403275_j15556371546628_3_alg».proof.Proof.Gen.ReferenceIdeal
import proofs.«403275_j15556371546628_3_alg».proof.Proof.Gen.Pre_finite_inputs
import proofs.«403275_j15556371546628_3_alg».proof.Proof.RefRead
import proofs.«403275_j15556371546628_3_alg».proof.Proof.RefValue
import proofs.«403275_j15556371546628_3_alg».proof.Proof.KRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end at the specification's function of their argument arrays, and the arrays agree. -/
theorem algebraic : Cert.algebraic_KernelIdeal_ReferenceIdeal := by
  intro m ρ m' ρ' _ hagree
  refine ⟨fun c => Cert.KernelIdeal.KRun.spec m c, Cert.KernelIdeal.KRun.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6⟩ := hagree c
  rw [Cert.ReferenceIdeal.ReadP.val_main_v57_eq, Cert.ReferenceIdeal.RefValue.ref_eq, h0, h1, h2, h3, h4, h5, h6]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
